-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S1024 : Shape := ⟨1, ![1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x256 .f32) (main_arg1 : FVec F S256x1024 .f32) (main_arg2 : FVec F S1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x256 : Shape := ⟨2, ![65536, 256]⟩
abbrev S256x1024 : Shape := ⟨2, ![256, 1024]⟩
abbrev S1024 : Shape := ⟨1, ![1024]⟩
abbrev S1x1024 : Shape := ⟨2, ![1, 1024]⟩
abbrev S16384x256 : Shape := ⟨2, ![16384, 256]⟩
abbrev S512x256 : Shape := ⟨2, ![512, 256]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S1024, .f32⟩
  | .hbm, ⟨3, _⟩ => ⟨S1x1024, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1024, .f32⟩
  | .local _ .vmem, ⟨9, _⟩ => ⟨S1x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x256_S512x256_0_0 : ∀ a, (![0, 0] : Fin 2 → Nat) a + S512x256.size a ≤ S512x256.size a
  h_S512x256 : 0 < S512x256.numel
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  concatenates_S16384x256_S16384x256_S16384x256_S16384x256_S65536x256_d0 : Shape.Concatenates [S16384x256, S16384x256, S16384x256, S16384x256] S65536x256 0
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S65536x256.size a
  hwx0_3 : ∀ i : grid0.Coords, EltTy.bits .f32 = 32 ∨ (Rect.block (s := S65536x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S16384x256.size a
  hwx0_6 : ∀ i : grid0.Coords, EltTy.bits .f32 = 32 ∨ (Rect.block (s := S16384x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S16384x256.size a
  hwx0_8 : ∀ i : grid0.Coords, EltTy.bits .f32 = 32 ∨ (Rect.block (s := S16384x256) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S16384x256.size a
  hwx0_9 : ∀ i : grid0.Coords, EltTy.bits .f32 = 32 ∨ (Rect.block (s := S16384x256) S512x256.size (cc0_transform_9 i) (hinb0_9 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_3) S512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S1024 : Shape := ⟨1, ![1024]⟩
abbrev S65536x1024 : Shape := ⟨2, ![65536, 1024]⟩
abbrev S4x16384x1024 : Shape := ⟨3, ![4, 16384, 1024]⟩
abbrev S_ : Shape := ⟨0, ![]⟩
abbrev S1 : Shape := ⟨1, ![1]⟩
abbrev S16384x1024 : Shape := ⟨2, ![16384, 1024]⟩
abbrev S4x16384x4x256 : Shape := ⟨4, ![4, 16384, 4, 256]⟩
abbrev S1x16384x1x256 : Shape := ⟨4, ![1, 16384, 1, 256]⟩
abbrev S16384x256 : Shape := ⟨2, ![16384, 256]⟩

abbrev nBuf : Space → Nat
  | .hbm => 61
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S1024, .f32⟩
  | .hbm, ⟨3, _⟩ => ⟨S65536x1024, .f32⟩
  | .hbm, ⟨4, _⟩ => ⟨S4x16384x1024, .f32⟩
  | .hbm, ⟨5, _⟩ => ⟨S_, .i32⟩
  | .hbm, ⟨6, _⟩ => ⟨S1, .i32⟩
  | .hbm, ⟨7, _⟩ => ⟨S16384x1024, .f32⟩
  | .hbm, ⟨8, _⟩ => ⟨S4x16384x1024, .f32⟩
  | .hbm, ⟨9, _⟩ => ⟨S4x16384x4x256, .f32⟩
  | .hbm, ⟨10, _⟩ => ⟨S1x16384x1x256, .f32⟩
  | .hbm, ⟨11, _⟩ => ⟨S16384x256, .f32⟩
  | .hbm, ⟨12, _⟩ => ⟨S1x16384x1x256, .f32⟩
  | .hbm, ⟨13, _⟩ => ⟨S16384x256, .f32⟩
  | .hbm, ⟨14, _⟩ => ⟨S1x16384x1x256, .f32⟩
  | .hbm, ⟨15, _⟩ => ⟨S16384x256, .f32⟩
  | .hbm, ⟨16, _⟩ => ⟨S1x16384x1x256, .f32⟩
  | .hbm, ⟨17, _⟩ => ⟨S16384x256, .f32⟩
  | .hbm, ⟨18, _⟩ => ⟨S1x16384x1x256, .f32⟩
  | .hbm, ⟨19, _⟩ => ⟨S16384x256, .f32⟩
  | .hbm, ⟨20, _⟩ => ⟨S16384x256, .f32⟩
  | .hbm, ⟨21, _⟩ => ⟨S1x16384x1x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S1x16384x1x256, .f32⟩
  | .hbm, ⟨26, _⟩ => ⟨S16384x256, .f32⟩
  | .hbm, ⟨27, _⟩ => ⟨S16384x256, .f32⟩
  | .hbm, ⟨28, _⟩ => ⟨S1x16384x1x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S1x16384x1x256, .f32⟩
  | .hbm, ⟨33, _⟩ => ⟨S16384x256, .f32⟩
  | .hbm, ⟨34, _⟩ => ⟨S16384x256, .f32⟩
  | .hbm, ⟨35, _⟩ => ⟨S1x16384x1x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S1x16384x1x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S1x16384x1x256, .f32⟩
  | .hbm, ⟨44, _⟩ => ⟨S16384x256, .f32⟩
  | .hbm, ⟨45, _⟩ => ⟨S16384x256, .f32⟩
  | .hbm, ⟨46, _⟩ => ⟨S1x16384x1x256, .f32⟩
  | .hbm, ⟨47, _⟩ => ⟨S16384x256, .f32⟩
  | .hbm, ⟨48, _⟩ => ⟨S16384x256, .f32⟩
  | .hbm, ⟨49, _⟩ => ⟨S1x16384x1x256, .f32⟩
  | .hbm, ⟨50, _⟩ => ⟨S16384x256, .f32⟩
  | .hbm, ⟨51, _⟩ => ⟨S16384x256, .f32⟩
  | .hbm, ⟨52, _⟩ => ⟨S1x16384x1x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S1x16384x1x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩

abbrev nD : Nat := 1
abbrev τ : Topo := Topo.v7x

variable {F : FTy → Type} [FloatOps F]

class Facts₀ : Prop where
  shapeCasts_S65536x1024_S4x16384x1024 : S65536x1024.ShapeCasts S4x16384x1024
  bcast_S_S1 : S_.BroadcastsInDim S1 (![] : Fin 0 → Fin S1.rank)
  bcast_S1024_S16384x1024_1 : S1024.BroadcastsInDim S16384x1024 (![1] : Fin 1 → Fin S16384x1024.rank)
  shapeCasts_S4x16384x1024_S4x16384x4x256 : S4x16384x1024.ShapeCasts S4x16384x4x256
  slices_S4x16384x4x256_S1x16384x1x256_0_0_0_0 : S4x16384x4x256.Slices ![0, 0, 0, 0] S1x16384x1x256
  shapeCasts_S1x16384x1x256_S16384x256 : S1x16384x1x256.ShapeCasts S16384x256
  slices_S4x16384x4x256_S1x16384x1x256_0_0_1_0 : S4x16384x4x256.Slices ![0, 0, 1, 0] S1x16384x1x256
  slices_S4x16384x4x256_S1x16384x1x256_0_0_2_0 : S4x16384x4x256.Slices ![0, 0, 2, 0] S1x16384x1x256
  slices_S4x16384x4x256_S1x16384x1x256_0_0_3_0 : S4x16384x4x256.Slices ![0, 0, 3, 0] S1x16384x1x256
  slices_S4x16384x4x256_S1x16384x1x256_1_0_0_0 : S4x16384x4x256.Slices ![1, 0, 0, 0] S1x16384x1x256
  slices_S4x16384x4x256_S1x16384x1x256_1_0_1_0 : S4x16384x4x256.Slices ![1, 0, 1, 0] S1x16384x1x256
  slices_S4x16384x4x256_S1x16384x1x256_1_0_2_0 : S4x16384x4x256.Slices ![1, 0, 2, 0] S1x16384x1x256
  slices_S4x16384x4x256_S1x16384x1x256_1_0_3_0 : S4x16384x4x256.Slices ![1, 0, 3, 0] S1x16384x1x256
  slices_S4x16384x4x256_S1x16384x1x256_2_0_0_0 : S4x16384x4x256.Slices ![2, 0, 0, 0] S1x16384x1x256
  slices_S4x16384x4x256_S1x16384x1x256_2_0_1_0 : S4x16384x4x256.Slices ![2, 0, 1, 0] S1x16384x1x256
  slices_S4x16384x4x256_S1x16384x1x256_2_0_2_0 : S4x16384x4x256.Slices ![2, 0, 2, 0] S1x16384x1x256
  slices_S4x16384x4x256_S1x16384x1x256_2_0_3_0 : S4x16384x4x256.Slices ![2, 0, 3, 0] S1x16384x1x256
  slices_S4x16384x4x256_S1x16384x1x256_3_0_0_0 : S4x16384x4x256.Slices ![3, 0, 0, 0] S1x16384x1x256
  slices_S4x16384x4x256_S1x16384x1x256_3_0_1_0 : S4x16384x4x256.Slices ![3, 0, 1, 0] S1x16384x1x256
  slices_S4x16384x4x256_S1x16384x1x256_3_0_2_0 : S4x16384x4x256.Slices ![3, 0, 2, 0] S1x16384x1x256
  slices_S4x16384x4x256_S1x16384x1x256_3_0_3_0 : S4x16384x4x256.Slices ![3, 0, 3, 0] S1x16384x1x256
  concatenates_S16384x256_S16384x256_S16384x256_S16384x256_S65536x256_d0 : Shape.Concatenates [S16384x256, S16384x256, S16384x256, S16384x256] S65536x256 0
  dot_S65536x256_S256x1024_S65536x1024_1_0_0_1_n_n_wf : DotDims.WF S65536x256 S256x1024 S65536x1024 [1] [0] [0] [1] [] []
  scatter_S4x16384x1024_S1_S16384x1024_01_0_0_0_wf : ScatterDims.WF S4x16384x1024 S1 S16384x1024 [0, 1] [0] [0] 0

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def scatter_S4x16384x1024_S1_S16384x1024_01_0_0_0 : ScatterDims S4x16384x1024 S1 S16384x1024 where
  updateWindowDims := [0, 1]
  insertedWindowDims := [0]
  scatterDimsToOperandDims := [0]
  indexVectorDim := 0
  wf := scatter_S4x16384x1024_S1_S16384x1024_01_0_0_0_wf

class Facts : Prop extends Facts₀ where

variable [Facts]
-- ==== Proof.KBody.lean ====
/-
  One grid point of the fused kernel, run symbolically. The body reads four 512×256 tiles of the input (one per blade
  of the batch), the whole 256×1024 weight and the 1×1024 bias row, forms the four products tile · weight (the bias
  row added to the first only), cuts each into its four 512×256 column panels and stores four signed sums of panels,
  one per output tile. What each output tile holds afterwards is stated as the canon of its one whole-tile store over
  the named payloads; the pipeline's proof data carries these per point, the four tiles of the one input array held at
  a quarter share each.
-/
import proofs.«172979_j89300960018587_1_alg».proof.Proof.Gen.Kernel.Launch
import proofs.«172979_j89300960018587_1_alg».proof.Proof.Gen.Kernel.Skeleton
import proofs.«172979_j89300960018587_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data over
    these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not, for any proof data over
    these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not, for any proof data over
    these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not, for any proof data over
    these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not, for any proof data over
    these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not, for any proof data over
    these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rT : Rect S512x256 := Rect.unit (s := S512x256) ![0, 0] S512x256.size inb_S512x256_S512x256_0_0
abbrev rW : Rect S256x1024 := Rect.unit (s := S256x1024) ![0, 0] S256x1024.size inb_S256x1024_S256x1024_0_0
abbrev rB : Rect S1x1024 := Rect.unit (s := S1x1024) ![0, 0] S1x1024.size inb_S1x1024_S1x1024_0_0

/-! ## What the body leaves in each output tile -/

/-- Output tile 0: panel 0 of the first product (with the bias) less panel 1 of the second, panel 2 of the third and
    panel 3 of the fourth. -/
def out0_6 (x0 x1 x2 x3 : Vec F S512x256 .f32) (x4 : Vec F S256x1024 .f32) (x5 : Vec F S1x1024 .f32) : Vec F S512x256 .f32 :=
  View.canon [⟨rT, k0_pay1 (k0_pay22 (View.ld x4 rW) (View.ld x3 rT)) (k0_pay23 (View.ld x4 rW) (View.ld x5 rB) (View.ld x0 rT) (View.ld x1 rT) (View.ld x2 rT)) (Scalar.ofBits .f32 0x00000000#32)⟩]
/-- Output tile 1: panel 1 of the first product plus panel 0 of the second and panel 3 of the third, less panel 2 of the fourth. -/
def out0_7 (x0 x1 x2 x3 : Vec F S512x256 .f32) (x4 : Vec F S256x1024 .f32) (x5 : Vec F S1x1024 .f32) : Vec F S512x256 .f32 :=
  View.canon [⟨rT, k0_pay2 (k0_pay10 (View.ld x4 rW) (View.ld x5 rB) (View.ld x0 rT)) (k0_pay13 (View.ld x4 rW) (View.ld x1 rT)) (k0_pay18 (View.ld x4 rW) (View.ld x2 rT)) (k0_pay21 (View.ld x4 rW) (View.ld x3 rT))⟩]
/-- Output tile 2: panel 2 of the first product less panel 3 of the second, plus panel 0 of the third and panel 1 of the fourth. -/
def out0_8 (x0 x1 x2 x3 : Vec F S512x256 .f32) (x4 : Vec F S256x1024 .f32) (x5 : Vec F S1x1024 .f32) : Vec F S512x256 .f32 :=
  View.canon [⟨rT, k0_pay3 (k0_pay11 (View.ld x4 rW) (View.ld x5 rB) (View.ld x0 rT)) (k0_pay15 (View.ld x4 rW) (View.ld x1 rT)) (k0_pay16 (View.ld x4 rW) (View.ld x2 rT)) (k0_pay20 (View.ld x4 rW) (View.ld x3 rT))⟩]
/-- Output tile 3: panel 3 of the first product plus panel 2 of the second, less panel 1 of the third, plus panel 0 of the fourth. -/
def out0_9 (x0 x1 x2 x3 : Vec F S512x256 .f32) (x4 : Vec F S256x1024 .f32) (x5 : Vec F S1x1024 .f32) : Vec F S512x256 .f32 :=
  View.canon [⟨rT, k0_pay4 (k0_pay12 (View.ld x4 rW) (View.ld x5 rB) (View.ld x0 rT)) (k0_pay14 (View.ld x4 rW) (View.ld x1 rT)) (k0_pay17 (View.ld x4 rW) (View.ld x2 rT)) (k0_pay19 (View.ld x4 rW) (View.ld x3 rT))⟩]

/-- One whole-tile store covers the tile. -/
theorem coverT (p0 : Vec F S512x256 .f32) (y : S512x256.Idx) :
    ∃ pc ∈ ([⟨rT, p0⟩] : List (View.Piece (Elt F) S512x256 .f32)), y ∈ pc.1.set :=
  View.cover_of_tiled [⟨rT, p0⟩] S512x256.size (by rfl) y

/-! ## The body's triple -/

set_option maxHeartbeats 4000000 in
/-- The body on whole staging buffers, the six inputs' at read contents and the four outputs' at anything, runs to
    the continuation with the inputs' as they were and each output's at its tile's value. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole)
    (x0 x1 x2 x3 : Vec F S512x256 .f32) (x4 : Vec F S256x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)
            ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverT _)
  isplitl [H7]
  · iexists _; isplitr
    swap; · iexact H7
    ipureintro
    exact View.read_writes_eq_canon _ _ _ (coverT _)
  isplitl [H8]
  · iexists _; isplitr
    swap; · iexact H8
    ipureintro
    exact View.read_writes_eq_canon _ _ _ (coverT _)
  iexists _; isplitr
  swap; · iexact H9
  ipureintro
  exact View.read_writes_eq_canon _ _ _ (coverT _)

/-! ## The pipeline's proof data -/

/-- The four tiles of the one input array are held at a quarter of the full share each. -/
abbrev shareOf : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The proof data on core `c`: the arrays as the region finds them; after the body at point `t` each input's buffer
    at its block and each output's at its tile's value of the input blocks; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q := shareOf
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.KShares.lean ====
/-
  The one input array is read through four windows. Its buffer, held whole, is dealt to them a quarter share each on
  entering the pipeline, and the four quarters — all at the same contents, since no input window is ever written —
  are put together again on leaving it. Every other array belongs to one window and is held whole throughout.
-/
import proofs.«172979_j89300960018587_1_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one: the input array the four tile windows read, the
    weight, the bias row, and the four output arrays. -/
private theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1_0) ↦{fullShare} W main_v1_0)
          ∗ (((c : Thread nD τ).loc main_v1_1) ↦{fullShare} W main_v1_1) ∗ (((c : Thread nD τ).loc main_v1_2) ↦{fullShare} W main_v1_2)
          ∗ (((c : Thread nD τ).loc main_v1_3) ↦{fullShare} W main_v1_3)) := by
  unfold Pipeline.arrBufs
  rw [bigSep_eq_bigSepL_of_eq [main_arg0, main_arg1, main_v0, main_v1_0, main_v1_1, main_v1_2, main_v1_3] (by decide) (by decide)]
  rfl

/-- Every window's array is a whole buffer, so the proof data's arrays are whole-buffer points-tos, each at its
    window's share. -/
private theorem arrays0_whole (c : Dev nD)
    (G : (w : Fin cfg0.W) → Buf (Elt F) ((cfg0.win w).arr.view.loc (c.tc : Thread nD τ))) :
    ((dat0 V c).arrays G : sProp 𝕄)
      = bigSep Finset.univ fun w : Fin cfg0.W => (((cfg0.win w).arr.view.loc (c.tc : Thread nD τ)) ↦{(dat0 V c).share w} G w : sProp 𝕄) := by
  unfold Dat.arrays
  exact bigSep_congr fun w _ => by rw [(arr_whole0 w).set_eq_univ]

/-- Entering: the distinct buffers behind the windows' arrays, each whole at contents `V c`, make the proof data's
    arrays at any per-window contents `G` that are `V c`'s. -/
theorem arrays_split0 (c : Dev nD)
    (G : (w : Fin cfg0.W) → Buf (Elt F) ((cfg0.win w).arr.view.loc (c.tc : Thread nD τ)))
    (hG : ∀ w, G w = V c (Pipeline.arrRef spec0 w)) :
    (Pipeline.arrBufs (Ix := Unit) (Name := ℕ) (U := UR sig nD τ) (Lvl := ℕ) spec0 c (V c) : sProp 𝕄) ⊢ (dat0 V c).arrays G := by
  obtain rfl : G = fun w => V c (Pipeline.arrRef spec0 w) := funext hG
  rw [arrBufs0_eq, arrays0_whole, bigSep_W0]
  iintro ⟨H0, H1, H2, H3, H4, H5, H6⟩
  -- the input array: halves, then each half into quarters
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  isplitl [Hrr]; · iexact Hrr
  isplitl [H1]; · iexact H1
  isplitl [H2]; · iexact H2
  isplitl [H3]; · iexact H3
  isplitl [H4]; · iexact H4
  isplitl [H5]; · iexact H5
  iexact H6

/-- Leaving: the proof data's arrays at per-window contents `G` that are some `V'`'s make the distinct buffers
    behind them, each whole at `V'`. -/
theorem arrays_join0 (c : Dev nD) (V' : (b : Ref sig .tc) → Buf (Elt F) ((c : Thread nD τ).loc b))
    (G : (w : Fin cfg0.W) → Buf (Elt F) ((cfg0.win w).arr.view.loc (c.tc : Thread nD τ)))
    (hG : ∀ w, G w = V' (Pipeline.arrRef spec0 w)) :
    ((dat0 V c).arrays G : sProp 𝕄) ⊢ Pipeline.arrBufs (Ix := Unit) (Name := ℕ) (U := UR sig nD τ) (Lvl := ℕ) spec0 c V' := by
  obtain rfl : G = fun w => V' (Pipeline.arrRef spec0 w) := funext hG
  rw [arrBufs0_eq, arrays0_whole, bigSep_W0]
  iintro ⟨H0, H1, H2, H3, H4, H5, H6, H7, H8, H9⟩
  -- the input array: the four quarters, all at one contents, pair into halves and the halves into the whole
  isplitl [H0 H1 H2 H3]
  · iapply (pointsTo_share (PosShare.mem_left_op_right fullShare)).2
    isplitl [H0 H1]
    · iapply (pointsTo_share (PosShare.mem_left_op_right fullShare.left)).2
      isplitl [H0]; · iexact H0
      iexact H1
    · iapply (pointsTo_share (PosShare.mem_left_op_right fullShare.right)).2
      isplitl [H2]; · iexact H2
      iexact H3
  isplitl [H4]; · iexact H4
  isplitl [H5]; · iexact H5
  isplitl [H6]; · iexact H6
  isplitl [H7]; · iexact H7
  isplitl [H8]; · iexact H8
  iexact H9

end Cert.Kernel.Body

end
-- ==== Proof.KRun.lean ====
/-
  The whole run of @main: the bias is reshaped to a row on the host, the kernel region runs its 32 grid points, and
  the four result blocks are stacked on the host. Between these three items every unscoped buffer of the core is held
  whole at known contents: the launch memory; then the same with the bias row written; then the same with each of the
  four output arrays at what the pipeline's write-backs leave; then the same with the stacked result written. The
  region is entered by dealing the one input array to its four windows a quarter share each and left by putting the
  quarters together again. Read against the final state: the result buffer holds the four blocks stacked, and no
  argument array was written.
-/
import proofs.«172979_j89300960018587_1_alg».proof.Proof.KBody
import proofs.«172979_j89300960018587_1_alg».proof.Proof.KShares

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the host's reshape of the bias: the region's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: each output array at what the write-backs leave, every other buffer as entered. -/
def W2 (c : Dev nD) : Valuation τ sig (Elt F) :=
  Function.update (Function.update (Function.update (Function.update (W1 m c)
    main_v1_0 ((dat0 (V1 m) c).arrAt 6 cfg0.N)) main_v1_1 ((dat0 (V1 m) c).arrAt 7 cfg0.N))
    main_v1_2 ((dat0 (V1 m) c).arrAt 8 cfg0.N)) main_v1_3 ((dat0 (V1 m) c).arrAt 9 cfg0.N)
abbrev V2 : (c : Dev nD) → (b : Ref sig .tc) → Buf (Elt F) ((c : Thread nD τ).loc b) := fun c b => W2 m c b
/-- After the host's stacking of the four blocks: the end. -/
abbrev W3 : Dev nD → Valuation τ sig (Elt F) := fun c => StableHlo.after hostOps1 (W2 m c)

theorem W2_v1_0 (c : Dev nD) : W2 m c main_v1_0 = (dat0 (V1 m) c).arrAt 6 cfg0.N := by
  unfold W2
  rw [Function.update_of_ne (by decide), Function.update_of_ne (by decide), Function.update_of_ne (by decide), Function.update_self]
theorem W2_v1_1 (c : Dev nD) : W2 m c main_v1_1 = (dat0 (V1 m) c).arrAt 7 cfg0.N := by
  unfold W2
  rw [Function.update_of_ne (by decide), Function.update_of_ne (by decide), Function.update_self]
theorem W2_v1_2 (c : Dev nD) : W2 m c main_v1_2 = (dat0 (V1 m) c).arrAt 8 cfg0.N := by
  unfold W2
  rw [Function.update_of_ne (by decide), Function.update_self]
theorem W2_v1_3 (c : Dev nD) : W2 m c main_v1_3 = (dat0 (V1 m) c).arrAt 9 cfg0.N := by
  unfold W2
  rw [Function.update_self]
/-- A buffer that is none of the four output arrays is as entered. -/
theorem W2_of_ne (c : Dev nD) (b : Ref sig .tc) (h0 : b ≠ main_v1_0) (h1 : b ≠ main_v1_1) (h2 : b ≠ main_v1_2) (h3 : b ≠ main_v1_3) :
    W2 m c b = W1 m c b := by
  unfold W2
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- At the exit each window's array holds what the pipeline leaves: an input array its entry contents (never written),
    an output array its write-backs. -/
theorem hF0 (c : Dev nD) : ∀ w : Fin cfg0.W, (dat0 (V1 m) c).arrAt w cfg0.N = V2 m c (Pipeline.arrRef spec0 w)
  | ⟨0, _⟩ => ((dat0 (V1 m) c).arrAt_in 0 rfl _).trans ((A_eq0 (V1 m) c 0).trans (W2_of_ne m c main_arg0 (by decide) (by decide) (by decide) (by decide)).symm)
  | ⟨1, _⟩ => ((dat0 (V1 m) c).arrAt_in 1 rfl _).trans ((A_eq0 (V1 m) c 1).trans (W2_of_ne m c main_arg0 (by decide) (by decide) (by decide) (by decide)).symm)
  | ⟨2, _⟩ => ((dat0 (V1 m) c).arrAt_in 2 rfl _).trans ((A_eq0 (V1 m) c 2).trans (W2_of_ne m c main_arg0 (by decide) (by decide) (by decide) (by decide)).symm)
  | ⟨3, _⟩ => ((dat0 (V1 m) c).arrAt_in 3 rfl _).trans ((A_eq0 (V1 m) c 3).trans (W2_of_ne m c main_arg0 (by decide) (by decide) (by decide) (by decide)).symm)
  | ⟨4, _⟩ => ((dat0 (V1 m) c).arrAt_in 4 rfl _).trans ((A_eq0 (V1 m) c 4).trans (W2_of_ne m c main_arg1 (by decide) (by decide) (by decide) (by decide)).symm)
  | ⟨5, _⟩ => ((dat0 (V1 m) c).arrAt_in 5 rfl _).trans ((A_eq0 (V1 m) c 5).trans (W2_of_ne m c main_v0 (by decide) (by decide) (by decide) (by decide)).symm)
  | ⟨6, _⟩ => (W2_v1_0 m c).symm
  | ⟨7, _⟩ => (W2_v1_1 m c).symm
  | ⟨8, _⟩ => (W2_v1_2 m c).symm
  | ⟨9, _⟩ => (W2_v1_3 m c).symm

/-- A buffer behind no window is as entered. -/
theorem hrest0 (c : Dev nD) (b : Ref sig .tc) (hb : b ∉ Finset.univ.image (Pipeline.arrRef spec0)) : V2 m c b = V1 m c b :=
  W2_of_ne m c b (fun e => hb (e ▸ Finset.mem_image.mpr ⟨6, Finset.mem_univ _, rfl⟩))
    (fun e => hb (e ▸ Finset.mem_image.mpr ⟨7, Finset.mem_univ _, rfl⟩))
    (fun e => hb (e ▸ Finset.mem_image.mpr ⟨8, Finset.mem_univ _, rfl⟩))
    (fun e => hb (e ▸ Finset.mem_image.mpr ⟨9, Finset.mem_univ _, rfl⟩))

/-! ## The proof data family and what rides beside the buffers -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- The region, entered from every unscoped buffer at the entry contents and left with them at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0)
            ∗ Pipeline.unscopedRest (Ix := Unit) (Name := ℕ) (U := UR sig nD τ) (Lvl := ℕ) spec0 c (V1 m c)) := by
      rw [Pipeline.unscopedBufs_split₀ cfgs 0 winFacts₀0.arr_unscoped c (V1 m c)]
      exact sep_mono (arrays_split0 (V1 m) c _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (V2 m c) : sProp 𝕄) := by
      rw [Pipeline.unscopedBufs_split₀ cfgs 0 winFacts₀0.arr_unscoped c (V2 m c)]
      refine sep_mono (arrays_join0 (V1 m) c (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the region is entered with -/

/-- The host's reshape writes only the bias row: the input and the weight are as launched, -/
theorem V1_arg0 (c : Dev nD) : V1 m c main_arg0 = m ((c : Thread nD τ).loc main_arg0) := by
  show StableHlo.after hostOps0 (W0 m c) (Proc.devRef .tc main_arg0) = _
  after_results
theorem V1_arg1 (c : Dev nD) : V1 m c main_arg1 = m ((c : Thread nD τ).loc main_arg1) := by
  show StableHlo.after hostOps0 (W0 m c) (Proc.devRef .tc main_arg1) = _
  after_results
/-- and the bias row is the bias regrouped as one row. -/
theorem V1_v0 (c : Dev nD) : V1 m c main_v0 = shapeCast S1x1024 (m ((c : Thread nD τ).loc main_arg2)) shapeCasts_S1024_S1x1024 := by
  show StableHlo.after hostOps0 (W0 m c) (Proc.devRef .tc main_v0) = _
  after_results
  rfl

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

/-! ## What the end holds -/

/-- The stacked result: the host's concatenate of the four output arrays as the region left them. -/
theorem W3_v2 (c : Dev nD) : W3 m c main_v2
    = concatenate S65536x256 0 [⟨S16384x256, (dat0 (V1 m) c).arrAt 6 cfg0.N⟩, ⟨S16384x256, (dat0 (V1 m) c).arrAt 7 cfg0.N⟩,
        ⟨S16384x256, (dat0 (V1 m) c).arrAt 8 cfg0.N⟩, ⟨S16384x256, (dat0 (V1 m) c).arrAt 9 cfg0.N⟩]
        concatenates_S16384x256_S16384x256_S16384x256_S16384x256_S65536x256_d0 := by
  show StableHlo.after hostOps1 (W2 m c) (Proc.devRef .tc main_v2) = _
  after_results
  show concatenate S65536x256 0 [⟨S16384x256, W2 m c main_v1_0⟩, ⟨S16384x256, W2 m c main_v1_1⟩, ⟨S16384x256, W2 m c main_v1_2⟩, ⟨S16384x256, W2 m c main_v1_3⟩]
      concatenates_S16384x256_S16384x256_S16384x256_S16384x256_S65536x256_d0 = _
  rw [W2_v1_0, W2_v1_1, W2_v1_2, W2_v1_3]

/-- No item writes an argument array. -/
theorem W3_arg0 (c : Dev nD) : W3 m c main_arg0 = m ((c : Thread nD τ).loc main_arg0) := by
  show StableHlo.after hostOps1 (W2 m c) (Proc.devRef .tc main_arg0) = _
  after_results
  rw [W2_of_ne m c main_arg0 (by decide) (by decide) (by decide) (by decide)]
  show StableHlo.after hostOps0 (W0 m c) (Proc.devRef .tc main_arg0) = _
  after_results
theorem W3_arg1 (c : Dev nD) : W3 m c main_arg1 = m ((c : Thread nD τ).loc main_arg1) := by
  show StableHlo.after hostOps1 (W2 m c) (Proc.devRef .tc main_arg1) = _
  after_results
  rw [W2_of_ne m c main_arg1 (by decide) (by decide) (by decide) (by decide)]
  show StableHlo.after hostOps0 (W0 m c) (Proc.devRef .tc main_arg1) = _
  after_results
theorem W3_arg2 (c : Dev nD) : W3 m c main_arg2 = m ((c : Thread nD τ).loc main_arg2) := by
  show StableHlo.after hostOps1 (W2 m c) (Proc.devRef .tc main_arg2) = _
  after_results
  rw [W2_of_ne m c main_arg2 (by decide) (by decide) (by decide) (by decide)]
  show StableHlo.after hostOps0 (W0 m c) (Proc.devRef .tc main_arg2) = _
  after_results

set_option backward.isDefEq.respectTransparency.types false in
/-- Every weakly fair execution of @main from a memory with zero counters terminates, nothing faulting, with the
    result buffer at the four output arrays stacked and the three argument arrays as launched. -/
theorem run_main : θ_run defs (onTc (τ := τ) (main (F := F))) ⟨m, fun _ => 0, ρ⟩ (fun r => ∀ c : Dev nD,
      r.2.mem ((c.tc : Thread nD τ).loc main_v2)
          = concatenate S65536x256 0 [⟨S16384x256, (dat0 (V1 m) c).arrAt 6 cfg0.N⟩, ⟨S16384x256, (dat0 (V1 m) c).arrAt 7 cfg0.N⟩,
              ⟨S16384x256, (dat0 (V1 m) c).arrAt 8 cfg0.N⟩, ⟨S16384x256, (dat0 (V1 m) c).arrAt 9 cfg0.N⟩]
              concatenates_S16384x256_S16384x256_S16384x256_S16384x256_S65536x256_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_v2 m c),
       (h c _ (mem_uc main_arg0 (by decide))).trans (W3_arg0 m c),
       (h c _ (mem_uc main_arg1 (by decide))).trans (W3_arg1 m c),
       (h c _ (mem_uc main_arg2 (by decide))).trans (W3_arg2 m c)⟩)

end Cert.Kernel.Run

end
-- ==== Proof.KIBody.lean ====
/-
  One grid point of the fused kernel, run symbolically. The body reads four 512×256 tiles of the input (one per blade
  of the batch), the whole 256×1024 weight and the 1×1024 bias row, forms the four products tile · weight (the bias
  row added to the first only), cuts each into its four 512×256 column panels and stores four signed sums of panels,
  one per output tile. What each output tile holds afterwards is stated as the canon of its one whole-tile store over
  the named payloads; the pipeline's proof data carries these per point, the four tiles of the one input array held at
  a quarter share each.
-/
import proofs.«172979_j89300960018587_1_alg».proof.Proof.Gen.KernelIdeal.Launch
import proofs.«172979_j89300960018587_1_alg».proof.Proof.Gen.KernelIdeal.Skeleton
import proofs.«172979_j89300960018587_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data over
    these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not, for any proof data over
    these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not, for any proof data over
    these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not, for any proof data over
    these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not, for any proof data over
    these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not, for any proof data over
    these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rT : Rect S512x256 := Rect.unit (s := S512x256) ![0, 0] S512x256.size inb_S512x256_S512x256_0_0
abbrev rW : Rect S256x1024 := Rect.unit (s := S256x1024) ![0, 0] S256x1024.size inb_S256x1024_S256x1024_0_0
abbrev rB : Rect S1x1024 := Rect.unit (s := S1x1024) ![0, 0] S1x1024.size inb_S1x1024_S1x1024_0_0

/-! ## What the body leaves in each output tile -/

/-- Output tile 0: panel 0 of the first product (with the bias) less panel 1 of the second, panel 2 of the third and
    panel 3 of the fourth. -/
def out0_6 (x0 x1 x2 x3 : Vec F S512x256 .f32) (x4 : Vec F S256x1024 .f32) (x5 : Vec F S1x1024 .f32) : Vec F S512x256 .f32 :=
  View.canon [⟨rT, k0_pay1 (k0_pay22 (View.ld x4 rW) (View.ld x3 rT)) (k0_pay23 (View.ld x4 rW) (View.ld x5 rB) (View.ld x0 rT) (View.ld x1 rT) (View.ld x2 rT)) (Scalar.ofBits .f32 0x00000000#32)⟩]
/-- Output tile 1: panel 1 of the first product plus panel 0 of the second and panel 3 of the third, less panel 2 of the fourth. -/
def out0_7 (x0 x1 x2 x3 : Vec F S512x256 .f32) (x4 : Vec F S256x1024 .f32) (x5 : Vec F S1x1024 .f32) : Vec F S512x256 .f32 :=
  View.canon [⟨rT, k0_pay2 (k0_pay10 (View.ld x4 rW) (View.ld x5 rB) (View.ld x0 rT)) (k0_pay13 (View.ld x4 rW) (View.ld x1 rT)) (k0_pay18 (View.ld x4 rW) (View.ld x2 rT)) (k0_pay21 (View.ld x4 rW) (View.ld x3 rT))⟩]
/-- Output tile 2: panel 2 of the first product less panel 3 of the second, plus panel 0 of the third and panel 1 of the fourth. -/
def out0_8 (x0 x1 x2 x3 : Vec F S512x256 .f32) (x4 : Vec F S256x1024 .f32) (x5 : Vec F S1x1024 .f32) : Vec F S512x256 .f32 :=
  View.canon [⟨rT, k0_pay3 (k0_pay11 (View.ld x4 rW) (View.ld x5 rB) (View.ld x0 rT)) (k0_pay15 (View.ld x4 rW) (View.ld x1 rT)) (k0_pay16 (View.ld x4 rW) (View.ld x2 rT)) (k0_pay20 (View.ld x4 rW) (View.ld x3 rT))⟩]
/-- Output tile 3: panel 3 of the first product plus panel 2 of the second, less panel 1 of the third, plus panel 0 of the fourth. -/
def out0_9 (x0 x1 x2 x3 : Vec F S512x256 .f32) (x4 : Vec F S256x1024 .f32) (x5 : Vec F S1x1024 .f32) : Vec F S512x256 .f32 :=
  View.canon [⟨rT, k0_pay4 (k0_pay12 (View.ld x4 rW) (View.ld x5 rB) (View.ld x0 rT)) (k0_pay14 (View.ld x4 rW) (View.ld x1 rT)) (k0_pay17 (View.ld x4 rW) (View.ld x2 rT)) (k0_pay19 (View.ld x4 rW) (View.ld x3 rT))⟩]

/-- One whole-tile store covers the tile. -/
theorem coverT (p0 : Vec F S512x256 .f32) (y : S512x256.Idx) :
    ∃ pc ∈ ([⟨rT, p0⟩] : List (View.Piece (Elt F) S512x256 .f32)), y ∈ pc.1.set :=
  View.cover_of_tiled [⟨rT, p0⟩] S512x256.size (by rfl) y

/-! ## The body's triple -/

set_option maxHeartbeats 4000000 in
/-- The body on whole staging buffers, the six inputs' at read contents and the four outputs' at anything, runs to
    the continuation with the inputs' as they were and each output's at its tile's value. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole)
    (x0 x1 x2 x3 : Vec F S512x256 .f32) (x4 : Vec F S256x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)
            ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverT _)
  isplitl [H7]
  · iexists _; isplitr
    swap; · iexact H7
    ipureintro
    exact View.read_writes_eq_canon _ _ _ (coverT _)
  isplitl [H8]
  · iexists _; isplitr
    swap; · iexact H8
    ipureintro
    exact View.read_writes_eq_canon _ _ _ (coverT _)
  iexists _; isplitr
  swap; · iexact H9
  ipureintro
  exact View.read_writes_eq_canon _ _ _ (coverT _)

/-! ## The pipeline's proof data -/

/-- The four tiles of the one input array are held at a quarter of the full share each. -/
abbrev shareOf : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The proof data on core `c`: the arrays as the region finds them; after the body at point `t` each input's buffer
    at its block and each output's at its tile's value of the input blocks; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q := shareOf
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KIShares.lean ====
/-
  The one input array is read through four windows. Its buffer, held whole, is dealt to them a quarter share each on
  entering the pipeline, and the four quarters — all at the same contents, since no input window is ever written —
  are put together again on leaving it. Every other array belongs to one window and is held whole throughout.
-/
import proofs.«172979_j89300960018587_1_alg».proof.Proof.KIBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one: the input array the four tile windows read, the
    weight, the bias row, and the four output arrays. -/
private theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1_0) ↦{fullShare} W main_v1_0)
          ∗ (((c : Thread nD τ).loc main_v1_1) ↦{fullShare} W main_v1_1) ∗ (((c : Thread nD τ).loc main_v1_2) ↦{fullShare} W main_v1_2)
          ∗ (((c : Thread nD τ).loc main_v1_3) ↦{fullShare} W main_v1_3)) := by
  unfold Pipeline.arrBufs
  rw [bigSep_eq_bigSepL_of_eq [main_arg0, main_arg1, main_v0, main_v1_0, main_v1_1, main_v1_2, main_v1_3] (by decide) (by decide)]
  rfl

/-- Every window's array is a whole buffer, so the proof data's arrays are whole-buffer points-tos, each at its
    window's share. -/
private theorem arrays0_whole (c : Dev nD)
    (G : (w : Fin cfg0.W) → Buf (Elt F) ((cfg0.win w).arr.view.loc (c.tc : Thread nD τ))) :
    ((dat0 V c).arrays G : sProp 𝕄)
      = bigSep Finset.univ fun w : Fin cfg0.W => (((cfg0.win w).arr.view.loc (c.tc : Thread nD τ)) ↦{(dat0 V c).share w} G w : sProp 𝕄) := by
  unfold Dat.arrays
  exact bigSep_congr fun w _ => by rw [(arr_whole0 w).set_eq_univ]

/-- Entering: the distinct buffers behind the windows' arrays, each whole at contents `V c`, make the proof data's
    arrays at any per-window contents `G` that are `V c`'s. -/
theorem arrays_split0 (c : Dev nD)
    (G : (w : Fin cfg0.W) → Buf (Elt F) ((cfg0.win w).arr.view.loc (c.tc : Thread nD τ)))
    (hG : ∀ w, G w = V c (Pipeline.arrRef spec0 w)) :
    (Pipeline.arrBufs (Ix := Unit) (Name := ℕ) (U := UR sig nD τ) (Lvl := ℕ) spec0 c (V c) : sProp 𝕄) ⊢ (dat0 V c).arrays G := by
  obtain rfl : G = fun w => V c (Pipeline.arrRef spec0 w) := funext hG
  rw [arrBufs0_eq, arrays0_whole, bigSep_W0]
  iintro ⟨H0, H1, H2, H3, H4, H5, H6⟩
  -- the input array: halves, then each half into quarters
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  isplitl [Hrr]; · iexact Hrr
  isplitl [H1]; · iexact H1
  isplitl [H2]; · iexact H2
  isplitl [H3]; · iexact H3
  isplitl [H4]; · iexact H4
  isplitl [H5]; · iexact H5
  iexact H6

/-- Leaving: the proof data's arrays at per-window contents `G` that are some `V'`'s make the distinct buffers
    behind them, each whole at `V'`. -/
theorem arrays_join0 (c : Dev nD) (V' : (b : Ref sig .tc) → Buf (Elt F) ((c : Thread nD τ).loc b))
    (G : (w : Fin cfg0.W) → Buf (Elt F) ((cfg0.win w).arr.view.loc (c.tc : Thread nD τ)))
    (hG : ∀ w, G w = V' (Pipeline.arrRef spec0 w)) :
    ((dat0 V c).arrays G : sProp 𝕄) ⊢ Pipeline.arrBufs (Ix := Unit) (Name := ℕ) (U := UR sig nD τ) (Lvl := ℕ) spec0 c V' := by
  obtain rfl : G = fun w => V' (Pipeline.arrRef spec0 w) := funext hG
  rw [arrBufs0_eq, arrays0_whole, bigSep_W0]
  iintro ⟨H0, H1, H2, H3, H4, H5, H6, H7, H8, H9⟩
  -- the input array: the four quarters, all at one contents, pair into halves and the halves into the whole
  isplitl [H0 H1 H2 H3]
  · iapply (pointsTo_share (PosShare.mem_left_op_right fullShare)).2
    isplitl [H0 H1]
    · iapply (pointsTo_share (PosShare.mem_left_op_right fullShare.left)).2
      isplitl [H0]; · iexact H0
      iexact H1
    · iapply (pointsTo_share (PosShare.mem_left_op_right fullShare.right)).2
      isplitl [H2]; · iexact H2
      iexact H3
  isplitl [H4]; · iexact H4
  isplitl [H5]; · iexact H5
  isplitl [H6]; · iexact H6
  isplitl [H7]; · iexact H7
  isplitl [H8]; · iexact H8
  iexact H9

end Cert.KernelIdeal.Body

end
-- ==== Proof.KIRun.lean ====
/-
  The whole run of @main: the bias is reshaped to a row on the host, the kernel region runs its 32 grid points, and
  the four result blocks are stacked on the host. Between these three items every unscoped buffer of the core is held
  whole at known contents: the launch memory; then the same with the bias row written; then the same with each of the
  four output arrays at what the pipeline's write-backs leave; then the same with the stacked result written. The
  region is entered by dealing the one input array to its four windows a quarter share each and left by putting the
  quarters together again. Read against the final state: the result buffer holds the four blocks stacked, and no
  argument array was written.
-/
import proofs.«172979_j89300960018587_1_alg».proof.Proof.KIBody
import proofs.«172979_j89300960018587_1_alg».proof.Proof.KIShares

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the host's reshape of the bias: the region's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: each output array at what the write-backs leave, every other buffer as entered. -/
def W2 (c : Dev nD) : Valuation τ sig (Elt F) :=
  Function.update (Function.update (Function.update (Function.update (W1 m c)
    main_v1_0 ((dat0 (V1 m) c).arrAt 6 cfg0.N)) main_v1_1 ((dat0 (V1 m) c).arrAt 7 cfg0.N))
    main_v1_2 ((dat0 (V1 m) c).arrAt 8 cfg0.N)) main_v1_3 ((dat0 (V1 m) c).arrAt 9 cfg0.N)
abbrev V2 : (c : Dev nD) → (b : Ref sig .tc) → Buf (Elt F) ((c : Thread nD τ).loc b) := fun c b => W2 m c b
/-- After the host's stacking of the four blocks: the end. -/
abbrev W3 : Dev nD → Valuation τ sig (Elt F) := fun c => StableHlo.after hostOps1 (W2 m c)

theorem W2_v1_0 (c : Dev nD) : W2 m c main_v1_0 = (dat0 (V1 m) c).arrAt 6 cfg0.N := by
  unfold W2
  rw [Function.update_of_ne (by decide), Function.update_of_ne (by decide), Function.update_of_ne (by decide), Function.update_self]
theorem W2_v1_1 (c : Dev nD) : W2 m c main_v1_1 = (dat0 (V1 m) c).arrAt 7 cfg0.N := by
  unfold W2
  rw [Function.update_of_ne (by decide), Function.update_of_ne (by decide), Function.update_self]
theorem W2_v1_2 (c : Dev nD) : W2 m c main_v1_2 = (dat0 (V1 m) c).arrAt 8 cfg0.N := by
  unfold W2
  rw [Function.update_of_ne (by decide), Function.update_self]
theorem W2_v1_3 (c : Dev nD) : W2 m c main_v1_3 = (dat0 (V1 m) c).arrAt 9 cfg0.N := by
  unfold W2
  rw [Function.update_self]
/-- A buffer that is none of the four output arrays is as entered. -/
theorem W2_of_ne (c : Dev nD) (b : Ref sig .tc) (h0 : b ≠ main_v1_0) (h1 : b ≠ main_v1_1) (h2 : b ≠ main_v1_2) (h3 : b ≠ main_v1_3) :
    W2 m c b = W1 m c b := by
  unfold W2
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- At the exit each window's array holds what the pipeline leaves: an input array its entry contents (never written),
    an output array its write-backs. -/
theorem hF0 (c : Dev nD) : ∀ w : Fin cfg0.W, (dat0 (V1 m) c).arrAt w cfg0.N = V2 m c (Pipeline.arrRef spec0 w)
  | ⟨0, _⟩ => ((dat0 (V1 m) c).arrAt_in 0 rfl _).trans ((A_eq0 (V1 m) c 0).trans (W2_of_ne m c main_arg0 (by decide) (by decide) (by decide) (by decide)).symm)
  | ⟨1, _⟩ => ((dat0 (V1 m) c).arrAt_in 1 rfl _).trans ((A_eq0 (V1 m) c 1).trans (W2_of_ne m c main_arg0 (by decide) (by decide) (by decide) (by decide)).symm)
  | ⟨2, _⟩ => ((dat0 (V1 m) c).arrAt_in 2 rfl _).trans ((A_eq0 (V1 m) c 2).trans (W2_of_ne m c main_arg0 (by decide) (by decide) (by decide) (by decide)).symm)
  | ⟨3, _⟩ => ((dat0 (V1 m) c).arrAt_in 3 rfl _).trans ((A_eq0 (V1 m) c 3).trans (W2_of_ne m c main_arg0 (by decide) (by decide) (by decide) (by decide)).symm)
  | ⟨4, _⟩ => ((dat0 (V1 m) c).arrAt_in 4 rfl _).trans ((A_eq0 (V1 m) c 4).trans (W2_of_ne m c main_arg1 (by decide) (by decide) (by decide) (by decide)).symm)
  | ⟨5, _⟩ => ((dat0 (V1 m) c).arrAt_in 5 rfl _).trans ((A_eq0 (V1 m) c 5).trans (W2_of_ne m c main_v0 (by decide) (by decide) (by decide) (by decide)).symm)
  | ⟨6, _⟩ => (W2_v1_0 m c).symm
  | ⟨7, _⟩ => (W2_v1_1 m c).symm
  | ⟨8, _⟩ => (W2_v1_2 m c).symm
  | ⟨9, _⟩ => (W2_v1_3 m c).symm

/-- A buffer behind no window is as entered. -/
theorem hrest0 (c : Dev nD) (b : Ref sig .tc) (hb : b ∉ Finset.univ.image (Pipeline.arrRef spec0)) : V2 m c b = V1 m c b :=
  W2_of_ne m c b (fun e => hb (e ▸ Finset.mem_image.mpr ⟨6, Finset.mem_univ _, rfl⟩))
    (fun e => hb (e ▸ Finset.mem_image.mpr ⟨7, Finset.mem_univ _, rfl⟩))
    (fun e => hb (e ▸ Finset.mem_image.mpr ⟨8, Finset.mem_univ _, rfl⟩))
    (fun e => hb (e ▸ Finset.mem_image.mpr ⟨9, Finset.mem_univ _, rfl⟩))

/-! ## The proof data family and what rides beside the buffers -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- The region, entered from every unscoped buffer at the entry contents and left with them at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0)
            ∗ Pipeline.unscopedRest (Ix := Unit) (Name := ℕ) (U := UR sig nD τ) (Lvl := ℕ) spec0 c (V1 m c)) := by
      rw [Pipeline.unscopedBufs_split₀ cfgs 0 winFacts₀0.arr_unscoped c (V1 m c)]
      exact sep_mono (arrays_split0 (V1 m) c _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (V2 m c) : sProp 𝕄) := by
      rw [Pipeline.unscopedBufs_split₀ cfgs 0 winFacts₀0.arr_unscoped c (V2 m c)]
      refine sep_mono (arrays_join0 (V1 m) c (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the region is entered with -/

/-- The host's reshape writes only the bias row: the input and the weight are as launched, -/
theorem V1_arg0 (c : Dev nD) : V1 m c main_arg0 = m ((c : Thread nD τ).loc main_arg0) := by
  show StableHlo.after hostOps0 (W0 m c) (Proc.devRef .tc main_arg0) = _
  after_results
theorem V1_arg1 (c : Dev nD) : V1 m c main_arg1 = m ((c : Thread nD τ).loc main_arg1) := by
  show StableHlo.after hostOps0 (W0 m c) (Proc.devRef .tc main_arg1) = _
  after_results
/-- and the bias row is the bias regrouped as one row. -/
theorem V1_v0 (c : Dev nD) : V1 m c main_v0 = shapeCast S1x1024 (m ((c : Thread nD τ).loc main_arg2)) shapeCasts_S1024_S1x1024 := by
  show StableHlo.after hostOps0 (W0 m c) (Proc.devRef .tc main_v0) = _
  after_results
  rfl

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

/-! ## What the end holds -/

/-- The stacked result: the host's concatenate of the four output arrays as the region left them. -/
theorem W3_v2 (c : Dev nD) : W3 m c main_v2
    = concatenate S65536x256 0 [⟨S16384x256, (dat0 (V1 m) c).arrAt 6 cfg0.N⟩, ⟨S16384x256, (dat0 (V1 m) c).arrAt 7 cfg0.N⟩,
        ⟨S16384x256, (dat0 (V1 m) c).arrAt 8 cfg0.N⟩, ⟨S16384x256, (dat0 (V1 m) c).arrAt 9 cfg0.N⟩]
        concatenates_S16384x256_S16384x256_S16384x256_S16384x256_S65536x256_d0 := by
  show StableHlo.after hostOps1 (W2 m c) (Proc.devRef .tc main_v2) = _
  after_results
  show concatenate S65536x256 0 [⟨S16384x256, W2 m c main_v1_0⟩, ⟨S16384x256, W2 m c main_v1_1⟩, ⟨S16384x256, W2 m c main_v1_2⟩, ⟨S16384x256, W2 m c main_v1_3⟩]
      concatenates_S16384x256_S16384x256_S16384x256_S16384x256_S65536x256_d0 = _
  rw [W2_v1_0, W2_v1_1, W2_v1_2, W2_v1_3]

/-- No item writes an argument array. -/
theorem W3_arg0 (c : Dev nD) : W3 m c main_arg0 = m ((c : Thread nD τ).loc main_arg0) := by
  show StableHlo.after hostOps1 (W2 m c) (Proc.devRef .tc main_arg0) = _
  after_results
  rw [W2_of_ne m c main_arg0 (by decide) (by decide) (by decide) (by decide)]
  show StableHlo.after hostOps0 (W0 m c) (Proc.devRef .tc main_arg0) = _
  after_results
theorem W3_arg1 (c : Dev nD) : W3 m c main_arg1 = m ((c : Thread nD τ).loc main_arg1) := by
  show StableHlo.after hostOps1 (W2 m c) (Proc.devRef .tc main_arg1) = _
  after_results
  rw [W2_of_ne m c main_arg1 (by decide) (by decide) (by decide) (by decide)]
  show StableHlo.after hostOps0 (W0 m c) (Proc.devRef .tc main_arg1) = _
  after_results
theorem W3_arg2 (c : Dev nD) : W3 m c main_arg2 = m ((c : Thread nD τ).loc main_arg2) := by
  show StableHlo.after hostOps1 (W2 m c) (Proc.devRef .tc main_arg2) = _
  after_results
  rw [W2_of_ne m c main_arg2 (by decide) (by decide) (by decide) (by decide)]
  show StableHlo.after hostOps0 (W0 m c) (Proc.devRef .tc main_arg2) = _
  after_results

set_option backward.isDefEq.respectTransparency.types false in
/-- Every weakly fair execution of @main from a memory with zero counters terminates, nothing faulting, with the
    result buffer at the four output arrays stacked and the three argument arrays as launched. -/
theorem run_main : θ_run defs (onTc (τ := τ) (main (F := F))) ⟨m, fun _ => 0, ρ⟩ (fun r => ∀ c : Dev nD,
      r.2.mem ((c.tc : Thread nD τ).loc main_v2)
          = concatenate S65536x256 0 [⟨S16384x256, (dat0 (V1 m) c).arrAt 6 cfg0.N⟩, ⟨S16384x256, (dat0 (V1 m) c).arrAt 7 cfg0.N⟩,
              ⟨S16384x256, (dat0 (V1 m) c).arrAt 8 cfg0.N⟩, ⟨S16384x256, (dat0 (V1 m) c).arrAt 9 cfg0.N⟩]
              concatenates_S16384x256_S16384x256_S16384x256_S16384x256_S65536x256_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_v2 m c),
       (h c _ (mem_uc main_arg0 (by decide))).trans (W3_arg0 m c),
       (h c _ (mem_uc main_arg1 (by decide))).trans (W3_arg1 m c),
       (h c _ (mem_uc main_arg2 (by decide))).trans (W3_arg2 m c)⟩)

end Cert.KernelIdeal.Run

end
-- ==== Proof.Spec.lean ====
/-
  What the fused kernel and the reference both compute, as one function of the three argument arrays over the
  extended reals.

  The input `x` is four blades of 16384 rows stacked; the weight's 1024 columns are four panels of 256. Write
  `P i j` for the 16384×256 matrix "rows of blade `i` times panel `j` of the weight" (a sum over the 256 shared
  coordinates) and `B j` for `P 0 j` with panel `j` of the bias added to every row. The result is four 16384×256
  blocks, the quaternion product's table applied blade by panel:

      block 0 = ((B 0 − P 1 1) − P 2 2) − P 3 3        block 1 = ((B 1 + P 1 0) + P 2 3) − P 3 2
      block 2 = ((B 2 − P 1 3) + P 2 0) + P 3 1        block 3 = ((B 3 + P 1 2) − P 2 1) + P 3 0

  each sum taken in exactly this order, a subtraction being the addition of the negative.
-/
import Idealize.ShloMosaic.PureOps.Ideal
import Idealize.ShloMosaic.Lib.ValueIdx

noncomputable section

open scoped BigOperators

namespace Cert.Spec

open Idealize.ShloMosaic Idealize.ShloMosaic.ValueIdx

/-- Row `r` of blade `i` among the 65536 stacked rows. -/
def row (i : Fin 4) (r : Fin 16384) : Fin 65536 := ⟨i.val * 16384 + r.val, by have := i.isLt; have := r.isLt; omega⟩
/-- Column `u` of panel `j` among the weight's 1024 columns. -/
def col (j : Fin 4) (u : Fin 256) : Fin 1024 := ⟨j.val * 256 + u.val, by have := j.isLt; have := u.isLt; omega⟩

variable (x : FVec Ideal ⟨2, ![65536, 256]⟩ .f32) (W : FVec Ideal ⟨2, ![256, 1024]⟩ .f32) (b : FVec Ideal ⟨1, ![1024]⟩ .f32)

/-- `P i j` at row `r`, column `u`: blade `i`'s row times panel `j`'s column. -/
def prod (i j : Fin 4) (r : Fin 16384) (u : Fin 256) : EReal :=
  ∑ k : Fin 256, x (ix2 (row i r) k) * W (ix2 k (col j u))

/-- `B j`: blade 0's product with panel `j`, the bias added. -/
def prodB (j : Fin 4) (r : Fin 16384) (u : Fin 256) : EReal := prod x W 0 j r u + b (ix1 (col j u))

def o0 (r : Fin 16384) (u : Fin 256) : EReal := ((prodB x W b 0 r u + -prod x W 1 1 r u) + -prod x W 2 2 r u) + -prod x W 3 3 r u
def o1 (r : Fin 16384) (u : Fin 256) : EReal := ((prodB x W b 1 r u + prod x W 1 0 r u) + prod x W 2 3 r u) + -prod x W 3 2 r u
def o2 (r : Fin 16384) (u : Fin 256) : EReal := ((prodB x W b 2 r u + -prod x W 1 3 r u) + prod x W 2 0 r u) + prod x W 3 1 r u
def o3 (r : Fin 16384) (u : Fin 256) : EReal := ((prodB x W b 3 r u + prod x W 1 2 r u) + -prod x W 2 1 r u) + prod x W 3 0 r u

/-- The four result blocks as arrays. -/
def O0 : FVec Ideal ⟨2, ![16384, 256]⟩ .f32 := fun p => o0 x W b (p 0) (p 1)
def O1 : FVec Ideal ⟨2, ![16384, 256]⟩ .f32 := fun p => o1 x W b (p 0) (p 1)
def O2 : FVec Ideal ⟨2, ![16384, 256]⟩ .f32 := fun p => o2 x W b (p 0) (p 1)
def O3 : FVec Ideal ⟨2, ![16384, 256]⟩ .f32 := fun p => o3 x W b (p 0) (p 1)

theorem O0_ix2 (r : Fin 16384) (u : Fin 256) : O0 x W b (ix2 r u) = o0 x W b r u := rfl
theorem O1_ix2 (r : Fin 16384) (u : Fin 256) : O1 x W b (ix2 r u) = o1 x W b r u := rfl
theorem O2_ix2 (r : Fin 16384) (u : Fin 256) : O2 x W b (ix2 r u) = o2 x W b r u := rfl
theorem O3_ix2 (r : Fin 16384) (u : Fin 256) : O3 x W b (ix2 r u) = o3 x W b r u := rfl

/-- Zero less a number is its negative, on all of the extended reals. -/
theorem zero_sub_eq_neg (a : EReal) : (0 : EReal) - a = -a := by rw [sub_eq_add_neg, zero_add]

end Cert.Spec

end
-- ==== Proof.KIPayload.lean ====
/-
  The four output tiles of one grid point, read at a row `p` and a column `u` over the extended reals. A tile's
  product with the weight, cut to panel `j`, is at `(p, u)` the sum over the 256 shared coordinates of the tile's
  row `p` against the weight's column `256 j + u`; the bias row adds its entry at that column to the first tile's
  product; a change of float format is the identity; and zero less a number is its negative. So each output tile is
  the quaternion table's signed sum of four such panel entries, in the order the body adds them.
-/
import proofs.«172979_j89300960018587_1_alg».proof.Proof.KIBody
import proofs.«172979_j89300960018587_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Payload

open Cert.KernelIdeal Cert.KernelIdeal.Gen Cert.KernelIdeal.Body Cert.Spec
open Idealize.ShloMosaic Idealize.ShloMosaic.TcCoe Idealize.ShloMosaic.ValueIdx

/-- One 512-row tile against panel `j` of the weight, at row `p` and column `u`. -/
def tprod (xt : Vec Ideal S512x256 .f32) (w : Vec Ideal S256x1024 .f32) (j : Fin 4) (p : Fin 512) (u : Fin 256) : EReal :=
  ∑ k : Fin 256, xt (ix2 p k) * w (ix2 k (col j u))

/-! ## The matrix product at an index -/

/-- A whole-buffer rectangle's offsets are all zero. -/
theorem offs_zero : (![0, 0] : Fin 2 → Nat) = fun _ => 0 := funext fun a => by fin_cases a <;> rfl

/-- The left operand is read at the result's row … -/
theorem lhs_axis0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
/-- … and the shared coordinate; -/
theorem lhs_axis1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
/-- the right operand at the shared coordinate … -/
theorem rhs_axis0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
/-- … and the result's column. -/
theorem rhs_axis1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The product accumulated into zeros is, at row `p` and column `q`, the sum over the 256 shared coordinates of the
    left operand's row `p` against the right operand's column `q`. -/
theorem matmul_at (A : FVec Ideal S512x256 .bf16) (B : FVec Ideal S256x1024 .bf16) (p : Fin 512) (q : Fin 1024) :
    matmul (F := Ideal) dot_S512x256_S256x1024_S512x1024_1_0_0_1_n_n none A B (constant (F := Ideal) S512x1024 .f32 0x00000000#32) (ix2 p q)
      = ∑ k : Fin 256, A (ix2 p k) * B (ix2 k q) := by
  show FloatOps.matmul dot_S512x256_S256x1024_S512x1024_1_0_0_1_n_n none A B (constant (F := Ideal) S512x1024 .f32 0x00000000#32) (ix2 p q) = _
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p q) ((contrEquiv1 dot_S512x256_S256x1024_S512x1024_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S512x256_S256x1024_S512x1024_1_0_0_1_n_n.rhsIdx (ix2 p q) ((contrEquiv1 dot_S512x256_S256x1024_S512x1024_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The four products and their panels -/

/-- A tile's product with the weight, both passed through the narrower format (the identity here), at `(p, q)`. -/
theorem prod_at (w : Vec Ideal S256x1024 .f32) (xt : Vec Ideal S512x256 .f32) (p : Fin 512) (q : Fin 1024) :
    k0_pay7 (F := Ideal) w xt (ix2 p q) = ∑ k : Fin 256, xt (ix2 p k) * w (ix2 k q) := by
  unfold k0_pay7 k0_pay5
  exact matmul_at _ _ p q

/-- The second, third and fourth products are one and the same function of the weight and the tile. -/
theorem pay8_eq (w : Vec Ideal S256x1024 .f32) (xt : Vec Ideal S512x256 .f32) : k0_pay8 (F := Ideal) w xt = k0_pay7 (F := Ideal) w xt := rfl
theorem pay9_eq (w : Vec Ideal S256x1024 .f32) (xt : Vec Ideal S512x256 .f32) : k0_pay9 (F := Ideal) w xt = k0_pay7 (F := Ideal) w xt := rfl

/-- The first product has the bias row added to every row. -/
theorem prodB_at (w : Vec Ideal S256x1024 .f32) (b : Vec Ideal S1x1024 .f32) (xt : Vec Ideal S512x256 .f32) (p : Fin 512) (q : Fin 1024) :
    k0_pay6 (F := Ideal) w b xt (ix2 p q) = (∑ k : Fin 256, xt (ix2 p k) * w (ix2 k q)) + b (ix2 (0 : Fin 1) q) := by
  unfold k0_pay6 k0_pay5
  refine (addf_apply _ _ (ix2 p q)).trans ?_
  refine congrArg₂ (· + ·) (matmul_at _ _ p q) ?_
  rw [shapeCast_self]
  exact broadcastTo_1b_ab_apply b _ p q

/-- Panel `j` of a product array, at `(p, u)`: the array at column `256 j + u`. -/
theorem panel_at (xt : Vec Ideal S512x256 .f32) (w : Vec Ideal S256x1024 .f32) (y : FVec Ideal S512x1024 .f32)
    (hy : ∀ (p : Fin 512) (q : Fin 1024), y (ix2 p q) = ∑ k : Fin 256, xt (ix2 p k) * w (ix2 k q))
    (o : Nat) (h : S512x1024.Slices ![0, o] S512x256) (j : Fin 4) (hj : j.val * 256 = o) (p : Fin 512) (u : Fin 256) :
    extractStridedSlice S512x256 ![0, o] y h (ix2 p u) = tprod xt w j p u :=
  (slice2_axis1_apply o y h p u (col j u) (by show j.val * 256 + u.val = o + u.val; omega)).trans (hy p (col j u))

/-- The same of the product with the bias row added. -/
theorem panelB_at (xt : Vec Ideal S512x256 .f32) (w : Vec Ideal S256x1024 .f32) (b : Vec Ideal S1x1024 .f32) (y : FVec Ideal S512x1024 .f32)
    (hy : ∀ (p : Fin 512) (q : Fin 1024), y (ix2 p q) = (∑ k : Fin 256, xt (ix2 p k) * w (ix2 k q)) + b (ix2 (0 : Fin 1) q))
    (o : Nat) (h : S512x1024.Slices ![0, o] S512x256) (j : Fin 4) (hj : j.val * 256 = o) (p : Fin 512) (u : Fin 256) :
    extractStridedSlice S512x256 ![0, o] y h (ix2 p u) = tprod xt w j p u + b (ix2 (0 : Fin 1) (col j u)) :=
  (slice2_axis1_apply o y h p u (col j u) (by show j.val * 256 + u.val = o + u.val; omega)).trans (hy p (col j u))

variable (w : Vec Ideal S256x1024 .f32) (b : Vec Ideal S1x1024 .f32) (xt : Vec Ideal S512x256 .f32) (p : Fin 512) (u : Fin 256)

theorem pay10_at : k0_pay10 (F := Ideal) w b xt (ix2 p u) = tprod xt w 1 p u + b (ix2 (0 : Fin 1) (col 1 u)) := by
  unfold k0_pay10; exact panelB_at xt w b _ (prodB_at w b xt) 256 _ 1 rfl p u
theorem pay11_at : k0_pay11 (F := Ideal) w b xt (ix2 p u) = tprod xt w 2 p u + b (ix2 (0 : Fin 1) (col 2 u)) := by
  unfold k0_pay11; exact panelB_at xt w b _ (prodB_at w b xt) 512 _ 2 rfl p u
theorem pay12_at : k0_pay12 (F := Ideal) w b xt (ix2 p u) = tprod xt w 3 p u + b (ix2 (0 : Fin 1) (col 3 u)) := by
  unfold k0_pay12; exact panelB_at xt w b _ (prodB_at w b xt) 768 _ 3 rfl p u
theorem pay13_at : k0_pay13 (F := Ideal) w xt (ix2 p u) = tprod xt w 0 p u := by
  unfold k0_pay13; exact panel_at xt w _ (prod_at w xt) 0 _ 0 rfl p u
theorem pay14_at : k0_pay14 (F := Ideal) w xt (ix2 p u) = tprod xt w 2 p u := by
  unfold k0_pay14; exact panel_at xt w _ (prod_at w xt) 512 _ 2 rfl p u
theorem pay15_at : k0_pay15 (F := Ideal) w xt (ix2 p u) = tprod xt w 3 p u := by
  unfold k0_pay15; exact panel_at xt w _ (prod_at w xt) 768 _ 3 rfl p u
theorem pay16_at : k0_pay16 (F := Ideal) w xt (ix2 p u) = tprod xt w 0 p u := by
  unfold k0_pay16; rw [pay8_eq]; exact panel_at xt w _ (prod_at w xt) 0 _ 0 rfl p u
theorem pay17_at : k0_pay17 (F := Ideal) w xt (ix2 p u) = tprod xt w 1 p u := by
  unfold k0_pay17; rw [pay8_eq]; exact panel_at xt w _ (prod_at w xt) 256 _ 1 rfl p u
theorem pay18_at : k0_pay18 (F := Ideal) w xt (ix2 p u) = tprod xt w 3 p u := by
  unfold k0_pay18; rw [pay8_eq]; exact panel_at xt w _ (prod_at w xt) 768 _ 3 rfl p u
theorem pay19_at : k0_pay19 (F := Ideal) w xt (ix2 p u) = tprod xt w 0 p u := by
  unfold k0_pay19; rw [pay9_eq]; exact panel_at xt w _ (prod_at w xt) 0 _ 0 rfl p u
theorem pay20_at : k0_pay20 (F := Ideal) w xt (ix2 p u) = tprod xt w 1 p u := by
  unfold k0_pay20; rw [pay9_eq]; exact panel_at xt w _ (prod_at w xt) 256 _ 1 rfl p u
theorem pay21_at : k0_pay21 (F := Ideal) w xt (ix2 p u) = tprod xt w 2 p u := by
  unfold k0_pay21; rw [pay9_eq]; exact panel_at xt w _ (prod_at w xt) 512 _ 2 rfl p u
theorem pay22_at : k0_pay22 (F := Ideal) w xt (ix2 p u) = tprod xt w 3 p u := by
  unfold k0_pay22; rw [pay9_eq]; exact panel_at xt w _ (prod_at w xt) 768 _ 3 rfl p u

/-! ## The signed sums -/

/-- Zero, broadcast, less an array is at an index the negative of the array's entry. -/
theorem zero_less_at (v : FVec Ideal S512x256 .f32) (i : S512x256.Idx) :
    subf (broadcast S512x256 (Scalar.ofBits (F := Ideal) .f32 0x00000000#32)) v i = -(v i) := by
  show Ideal.ofBits .f32 0x00000000#32 - v i = -(v i)
  rw [Ideal.ofBits_zero_f32, zero_sub_eq_neg]

theorem pay1_at (v33 v39 : FVec Ideal S512x256 .f32) (i : S512x256.Idx) :
    k0_pay1 (F := Ideal) v33 v39 (Scalar.ofBits .f32 0x00000000#32) i = v39 i + -(v33 i) := by
  unfold k0_pay1
  exact congrArg (v39 i + ·) (zero_less_at v33 i)

theorem pay2_at (v19 v22 v29 v32 : FVec Ideal S512x256 .f32) (i : S512x256.Idx) :
    k0_pay2 (F := Ideal) v19 v22 v29 v32 i = ((v19 i + v22 i) + v29 i) + -(v32 i) := by
  unfold k0_pay2
  exact congrArg (((v19 i + v22 i) + v29 i) + ·) (zero_less_at v32 i)

theorem pay3_at (v20 v25 v26 v31 : FVec Ideal S512x256 .f32) (i : S512x256.Idx) :
    k0_pay3 (F := Ideal) v20 v25 v26 v31 i = ((v20 i + -(v25 i)) + v26 i) + v31 i := by
  unfold k0_pay3
  exact congrArg (fun z => ((v20 i + z) + v26 i) + v31 i) (zero_less_at v25 i)

theorem pay4_at (v21 v24 v27 v30 : FVec Ideal S512x256 .f32) (i : S512x256.Idx) :
    k0_pay4 (F := Ideal) v21 v24 v27 v30 i = ((v21 i + v24 i) + -(v27 i)) + v30 i := by
  unfold k0_pay4
  exact congrArg (fun z => ((v21 i + v24 i) + z) + v30 i) (zero_less_at v27 i)

/-- The first output's first three terms: panel 0 of the first product with the bias, less panel 1 of the second
    product and panel 2 of the third. -/
theorem pay23_at (x0 x1 x2 : Vec Ideal S512x256 .f32) :
    k0_pay23 (F := Ideal) w b x0 x1 x2 (ix2 p u)
      = ((tprod x0 w 0 p u + b (ix2 (0 : Fin 1) (col 0 u))) + -tprod x1 w 1 p u) + -tprod x2 w 2 p u := by
  unfold k0_pay23
  have e18 := panelB_at x0 w b _ (prodB_at w b x0) 0 slices_S512x1024_o0_0_S512x256 0 rfl p u
  have e23 := panel_at x1 w _ (prod_at w x1) 256 slices_S512x1024_o0_256_S512x256 1 rfl p u
  have e28 := panel_at x2 w _ (prod_at w x2) 512 slices_S512x1024_o0_512_S512x256 2 rfl p u
  rw [← e18, ← e23, ← e28, ← pay8_eq w x2]
  exact congrArg₂ (· + ·) (congrArg (_ + ·) (zero_less_at _ (ix2 p u))) (zero_less_at _ (ix2 p u))

/-! ## The four output tiles -/

theorem out0_6_apply (x0 x1 x2 x3 : Vec Ideal S512x256 .f32) (x4 : Vec Ideal S256x1024 .f32) (x5 : Vec Ideal S1x1024 .f32) (p : Fin 512) (u : Fin 256) :
    out0_6 (F := Ideal) x0 x1 x2 x3 x4 x5 (ix2 p u)
      = (((tprod x0 x4 0 p u + x5 (ix2 (0 : Fin 1) (col 0 u))) + -tprod x1 x4 1 p u) + -tprod x2 x4 2 p u) + -tprod x3 x4 3 p u := by
  unfold out0_6
  rw [View.canon_unit_zero offs_zero]
  simp only [View.ld_unit_zero (S := S512x256) offs_zero, View.ld_unit_zero (S := S256x1024) offs_zero, View.ld_unit_zero (S := S1x1024) offs_zero]
  rw [pay1_at, pay22_at, pay23_at]

theorem out0_7_apply (x0 x1 x2 x3 : Vec Ideal S512x256 .f32) (x4 : Vec Ideal S256x1024 .f32) (x5 : Vec Ideal S1x1024 .f32) (p : Fin 512) (u : Fin 256) :
    out0_7 (F := Ideal) x0 x1 x2 x3 x4 x5 (ix2 p u)
      = (((tprod x0 x4 1 p u + x5 (ix2 (0 : Fin 1) (col 1 u))) + tprod x1 x4 0 p u) + tprod x2 x4 3 p u) + -tprod x3 x4 2 p u := by
  unfold out0_7
  rw [View.canon_unit_zero offs_zero]
  simp only [View.ld_unit_zero (S := S512x256) offs_zero, View.ld_unit_zero (S := S256x1024) offs_zero, View.ld_unit_zero (S := S1x1024) offs_zero]
  rw [pay2_at, pay10_at, pay13_at, pay18_at, pay21_at]

theorem out0_8_apply (x0 x1 x2 x3 : Vec Ideal S512x256 .f32) (x4 : Vec Ideal S256x1024 .f32) (x5 : Vec Ideal S1x1024 .f32) (p : Fin 512) (u : Fin 256) :
    out0_8 (F := Ideal) x0 x1 x2 x3 x4 x5 (ix2 p u)
      = (((tprod x0 x4 2 p u + x5 (ix2 (0 : Fin 1) (col 2 u))) + -tprod x1 x4 3 p u) + tprod x2 x4 0 p u) + tprod x3 x4 1 p u := by
  unfold out0_8
  rw [View.canon_unit_zero offs_zero]
  simp only [View.ld_unit_zero (S := S512x256) offs_zero, View.ld_unit_zero (S := S256x1024) offs_zero, View.ld_unit_zero (S := S1x1024) offs_zero]
  rw [pay3_at, pay11_at, pay15_at, pay16_at, pay20_at]

theorem out0_9_apply (x0 x1 x2 x3 : Vec Ideal S512x256 .f32) (x4 : Vec Ideal S256x1024 .f32) (x5 : Vec Ideal S1x1024 .f32) (p : Fin 512) (u : Fin 256) :
    out0_9 (F := Ideal) x0 x1 x2 x3 x4 x5 (ix2 p u)
      = (((tprod x0 x4 3 p u + x5 (ix2 (0 : Fin 1) (col 3 u))) + tprod x1 x4 2 p u) + -tprod x2 x4 1 p u) + tprod x3 x4 0 p u := by
  unfold out0_9
  rw [View.canon_unit_zero offs_zero]
  simp only [View.ld_unit_zero (S := S512x256) offs_zero, View.ld_unit_zero (S := S256x1024) offs_zero, View.ld_unit_zero (S := S1x1024) offs_zero]
  rw [pay4_at, pay12_at, pay14_at, pay17_at, pay19_at]

end Cert.KernelIdeal.Payload

end
-- ==== Proof.KIValue.lean ====
/-
  From tiles to arrays. Grid point `t` writes tile `t` (rows `512 t … 512 t + 511`) of each of the four result
  blocks, and the 32 tiles cover the block's 16384 rows; the tile's inputs are rows `512 (32 i + t) …` of the input,
  which are rows `512 t …` of blade `i`, the whole weight, and the bias row. So after the last point each result block
  holds, at row `r` and column `u`, the specification's signed sum of panel entries.
-/
import proofs.«172979_j89300960018587_1_alg».proof.Proof.KIPayload
import Idealize.ShloMosaic.Lib.Pipeline.Value
import Idealize.ShloMosaic.Lib.ValueLayout

set_option maxRecDepth 16384

noncomputable section

open scoped BigOperators

namespace Cert.KernelIdeal.Value

open Cert.KernelIdeal Cert.KernelIdeal.Gen Cert.KernelIdeal.Body Cert.KernelIdeal.Payload Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)
  (x : FVec Ideal ⟨2, ![65536, 256]⟩ .f32) (W : FVec Ideal ⟨2, ![256, 1024]⟩ .f32) (b : FVec Ideal ⟨1, ![1024]⟩ .f32)

/-! ## The windows' index maps over the 32 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 32 + t.val ∧ win0_1.index t (1 : Fin 2) = 0 :=
  (by decide +kernel : ∀ t : Fin grid0.N, _)
theorem idx2 : ∀ t : Fin cfg0.N, win0_2.index t (0 : Fin 2) = 64 + t.val ∧ win0_2.index t (1 : Fin 2) = 0 :=
  (by decide +kernel : ∀ t : Fin grid0.N, _)
theorem idx3 : ∀ t : Fin cfg0.N, win0_3.index t (0 : Fin 2) = 96 + t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ## The input tiles as rows of the arrays -/

/-- The stacked input as the region finds it. -/
abbrev xarr : Vec Ideal S65536x256 .f32 := V c main_arg0
/-- Blade 0's tile at point `t`. -/
abbrev xb0 (t : Fin cfg0.N) : Vec Ideal S512x256 .f32 := iblk0 (F := Ideal) V c 0 t
/-- Blade 1's tile at point `t`. -/
abbrev xb1 (t : Fin cfg0.N) : Vec Ideal S512x256 .f32 := iblk0 (F := Ideal) V c 1 t
/-- Blade 2's tile at point `t`. -/
abbrev xb2 (t : Fin cfg0.N) : Vec Ideal S512x256 .f32 := iblk0 (F := Ideal) V c 2 t
/-- Blade 3's tile at point `t`. -/
abbrev xb3 (t : Fin cfg0.N) : Vec Ideal S512x256 .f32 := iblk0 (F := Ideal) V c 3 t
/-- The weight's block at point `t`. -/
abbrev wb (t : Fin cfg0.N) : Vec Ideal S256x1024 .f32 := iblk0 (F := Ideal) V c 4 t
/-- The bias row's block at point `t`. -/
abbrev bb (t : Fin cfg0.N) : Vec Ideal S1x1024 .f32 := iblk0 (F := Ideal) V c 5 t

/-- Row `p` of blade 0's tile at point `t` is row `512 t + p` of blade 0. -/
theorem xb0_apply (t : Fin cfg0.N) (p : Fin 512) (k : Fin 256) (r : Fin 16384) (hr : r.val = 512 * t.val + p.val) :
    xb0 V c t (ix2 p k) = xarr V c (ix2 (row 0 r) k) := by
  obtain ⟨e0, e1⟩ := idx0 t
  unfold xb0 iblk0
  rw [View.read_apply]
  show V c main_arg0 _ = V c main_arg0 _
  congr 1
  funext a
  apply Fin.ext
  match a with
  | ⟨0, _⟩ => show win0_0.index t (0 : Fin 2) * 512 + 1 * p.val = (row 0 r).val; rw [e0]; unfold row; dsimp only; omega
  | ⟨1, _⟩ => show win0_0.index t (1 : Fin 2) * 256 + 1 * k.val = k.val; rw [e1]; omega

/-- Row `p` of blade 1's tile at point `t` is row `512 t + p` of blade 1. -/
theorem xb1_apply (t : Fin cfg0.N) (p : Fin 512) (k : Fin 256) (r : Fin 16384) (hr : r.val = 512 * t.val + p.val) :
    xb1 V c t (ix2 p k) = xarr V c (ix2 (row 1 r) k) := by
  obtain ⟨e0, e1⟩ := idx1 t
  unfold xb1 iblk0
  rw [View.read_apply]
  show V c main_arg0 _ = V c main_arg0 _
  congr 1
  funext a
  apply Fin.ext
  match a with
  | ⟨0, _⟩ => show win0_1.index t (0 : Fin 2) * 512 + 1 * p.val = (row 1 r).val; rw [e0]; unfold row; dsimp only; omega
  | ⟨1, _⟩ => show win0_1.index t (1 : Fin 2) * 256 + 1 * k.val = k.val; rw [e1]; omega

/-- Row `p` of blade 2's tile at point `t` is row `512 t + p` of blade 2. -/
theorem xb2_apply (t : Fin cfg0.N) (p : Fin 512) (k : Fin 256) (r : Fin 16384) (hr : r.val = 512 * t.val + p.val) :
    xb2 V c t (ix2 p k) = xarr V c (ix2 (row 2 r) k) := by
  obtain ⟨e0, e1⟩ := idx2 t
  unfold xb2 iblk0
  rw [View.read_apply]
  show V c main_arg0 _ = V c main_arg0 _
  congr 1
  funext a
  apply Fin.ext
  match a with
  | ⟨0, _⟩ => show win0_2.index t (0 : Fin 2) * 512 + 1 * p.val = (row 2 r).val; rw [e0]; unfold row; dsimp only; omega
  | ⟨1, _⟩ => show win0_2.index t (1 : Fin 2) * 256 + 1 * k.val = k.val; rw [e1]; omega

/-- Row `p` of blade 3's tile at point `t` is row `512 t + p` of blade 3. -/
theorem xb3_apply (t : Fin cfg0.N) (p : Fin 512) (k : Fin 256) (r : Fin 16384) (hr : r.val = 512 * t.val + p.val) :
    xb3 V c t (ix2 p k) = xarr V c (ix2 (row 3 r) k) := by
  obtain ⟨e0, e1⟩ := idx3 t
  unfold xb3 iblk0
  rw [View.read_apply]
  show V c main_arg0 _ = V c main_arg0 _
  congr 1
  funext a
  apply Fin.ext
  match a with
  | ⟨0, _⟩ => show win0_3.index t (0 : Fin 2) * 512 + 1 * p.val = (row 3 r).val; rw [e0]; unfold row; dsimp only; omega
  | ⟨1, _⟩ => show win0_3.index t (1 : Fin 2) * 256 + 1 * k.val = k.val; rw [e1]; omega

/-- The weight's block is the whole weight at every point. -/
theorem wb_eq (t : Fin cfg0.N) : wb V c t = V c main_arg1 := by
  obtain ⟨e0, e1⟩ := idx4 t
  funext y
  unfold wb iblk0
  rw [View.read_apply]
  show V c main_arg1 _ = V c main_arg1 _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega

/-- The bias row's block is the whole row at every point. -/
theorem bb_eq (t : Fin cfg0.N) : bb V c t = V c main_v0 := by
  obtain ⟨e0, e1⟩ := idx5 t
  funext y
  unfold bb iblk0
  rw [View.read_apply]
  show V c main_v0 _ = V c main_v0 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-- The bias row at column `q` is the bias vector's entry `q`. -/
theorem bias_apply (hb : V c main_v0 = shapeCast S1x1024 b shapeCasts_S1024_S1x1024) (q : Fin 1024) :
    (V c main_v0 : Vec Ideal S1x1024 .f32) (ix2 (0 : Fin 1) q) = b (ix1 q) := by
  rw [hb]
  exact shapeCast_a_1a_apply b shapeCasts_S1024_S1x1024 0 q

/-- Tile `t`'s row `p` is a row of the 16384. -/
theorem exists_row (t : Fin cfg0.N) (p : Fin 512) : ∃ r : Fin 16384, r.val = 512 * t.val + p.val := by
  have ht : t.val < 32 := lt_of_lt_of_eq t.isLt (show cfg0.N = 32 from N_0)
  exact ⟨⟨512 * t.val + p.val, by have := p.isLt; omega⟩, rfl⟩

/-- Result block 0's tile at point `t`, read at row `p`, is the block's row `512 t + p`. -/
theorem read_blk6 (G : Vec Ideal S16384x256 .f32) (t : Fin cfg0.N) (p : Fin 512) (u : Fin 256) (r : Fin 16384) (hr : r.val = 512 * t.val + p.val) :
    ((cfg0.win 6).blk t).view.read (Elt Ideal) G (ix2 p u) = G (ix2 r u) := by
  obtain ⟨e0, e1⟩ := idx6 t
  rw [View.read_apply]
  show G _ = G _
  congr 1
  funext a
  apply Fin.ext
  match a with
  | ⟨0, _⟩ => show win0_6.index t (0 : Fin 2) * 512 + 1 * p.val = r.val; rw [e0]; omega
  | ⟨1, _⟩ => show win0_6.index t (1 : Fin 2) * 256 + 1 * u.val = u.val; rw [e1]; omega

/-- Result block 1's tile at point `t`, read at row `p`, is the block's row `512 t + p`. -/
theorem read_blk7 (G : Vec Ideal S16384x256 .f32) (t : Fin cfg0.N) (p : Fin 512) (u : Fin 256) (r : Fin 16384) (hr : r.val = 512 * t.val + p.val) :
    ((cfg0.win 7).blk t).view.read (Elt Ideal) G (ix2 p u) = G (ix2 r u) := by
  obtain ⟨e0, e1⟩ := idx7 t
  rw [View.read_apply]
  show G _ = G _
  congr 1
  funext a
  apply Fin.ext
  match a with
  | ⟨0, _⟩ => show win0_7.index t (0 : Fin 2) * 512 + 1 * p.val = r.val; rw [e0]; omega
  | ⟨1, _⟩ => show win0_7.index t (1 : Fin 2) * 256 + 1 * u.val = u.val; rw [e1]; omega

/-- Result block 2's tile at point `t`, read at row `p`, is the block's row `512 t + p`. -/
theorem read_blk8 (G : Vec Ideal S16384x256 .f32) (t : Fin cfg0.N) (p : Fin 512) (u : Fin 256) (r : Fin 16384) (hr : r.val = 512 * t.val + p.val) :
    ((cfg0.win 8).blk t).view.read (Elt Ideal) G (ix2 p u) = G (ix2 r u) := by
  obtain ⟨e0, e1⟩ := idx8 t
  rw [View.read_apply]
  show G _ = G _
  congr 1
  funext a
  apply Fin.ext
  match a with
  | ⟨0, _⟩ => show win0_8.index t (0 : Fin 2) * 512 + 1 * p.val = r.val; rw [e0]; omega
  | ⟨1, _⟩ => show win0_8.index t (1 : Fin 2) * 256 + 1 * u.val = u.val; rw [e1]; omega

/-- Result block 3's tile at point `t`, read at row `p`, is the block's row `512 t + p`. -/
theorem read_blk9 (G : Vec Ideal S16384x256 .f32) (t : Fin cfg0.N) (p : Fin 512) (u : Fin 256) (r : Fin 16384) (hr : r.val = 512 * t.val + p.val) :
    ((cfg0.win 9).blk t).view.read (Elt Ideal) G (ix2 p u) = G (ix2 r u) := by
  obtain ⟨e0, e1⟩ := idx9 t
  rw [View.read_apply]
  show G _ = G _
  congr 1
  funext a
  apply Fin.ext
  match a with
  | ⟨0, _⟩ => show win0_9.index t (0 : Fin 2) * 512 + 1 * p.val = r.val; rw [e0]; omega
  | ⟨1, _⟩ => show win0_9.index t (1 : Fin 2) * 256 + 1 * u.val = u.val; rw [e1]; omega

/-! ## One tile against one panel is the blade against the panel -/

theorem tprod_eq (xt : Vec Ideal S512x256 .f32) (w : Vec Ideal S256x1024 .f32) (i j : Fin 4) (r : Fin 16384) (p : Fin 512) (u : Fin 256)
    (hxt : ∀ k : Fin 256, xt (ix2 p k) = x (ix2 (row i r) k)) (hw : w = W) :
    Payload.tprod xt w j p u = prod x W i j r u := by
  subst hw
  unfold Payload.tprod prod
  exact Finset.sum_congr rfl fun k _ => by rw [hxt k]

/-- Output tile 0 at row `p`, column `u`, for tiles that are rows `r` of the blades: the specification's entry. -/
theorem tile0_eq (x0 x1 x2 x3 : Vec Ideal S512x256 .f32) (x4 : Vec Ideal S256x1024 .f32) (x5 : Vec Ideal S1x1024 .f32)
    (p : Fin 512) (u : Fin 256) (r : Fin 16384)
    (h0 : ∀ k : Fin 256, x0 (ix2 p k) = x (ix2 (row 0 r) k)) (h1 : ∀ k : Fin 256, x1 (ix2 p k) = x (ix2 (row 1 r) k))
    (h2 : ∀ k : Fin 256, x2 (ix2 p k) = x (ix2 (row 2 r) k)) (h3 : ∀ k : Fin 256, x3 (ix2 p k) = x (ix2 (row 3 r) k))
    (h4 : x4 = W) (h5 : ∀ q : Fin 1024, x5 (ix2 (0 : Fin 1) q) = b (ix1 q)) :
    out0_6 (F := Ideal) x0 x1 x2 x3 x4 x5 (ix2 p u) = o0 x W b r u := by
  rw [out0_6_apply x0 x1 x2 x3 x4 x5 p u, h5 (col 0 u),
    tprod_eq x W x0 x4 0 0 r p u h0 h4, tprod_eq x W x1 x4 1 1 r p u h1 h4,
    tprod_eq x W x2 x4 2 2 r p u h2 h4, tprod_eq x W x3 x4 3 3 r p u h3 h4]
  rfl

/-- Output tile 1 at row `p`, column `u`, for tiles that are rows `r` of the blades: the specification's entry. -/
theorem tile1_eq (x0 x1 x2 x3 : Vec Ideal S512x256 .f32) (x4 : Vec Ideal S256x1024 .f32) (x5 : Vec Ideal S1x1024 .f32)
    (p : Fin 512) (u : Fin 256) (r : Fin 16384)
    (h0 : ∀ k : Fin 256, x0 (ix2 p k) = x (ix2 (row 0 r) k)) (h1 : ∀ k : Fin 256, x1 (ix2 p k) = x (ix2 (row 1 r) k))
    (h2 : ∀ k : Fin 256, x2 (ix2 p k) = x (ix2 (row 2 r) k)) (h3 : ∀ k : Fin 256, x3 (ix2 p k) = x (ix2 (row 3 r) k))
    (h4 : x4 = W) (h5 : ∀ q : Fin 1024, x5 (ix2 (0 : Fin 1) q) = b (ix1 q)) :
    out0_7 (F := Ideal) x0 x1 x2 x3 x4 x5 (ix2 p u) = o1 x W b r u := by
  rw [out0_7_apply x0 x1 x2 x3 x4 x5 p u, h5 (col 1 u),
    tprod_eq x W x0 x4 0 1 r p u h0 h4, tprod_eq x W x1 x4 1 0 r p u h1 h4,
    tprod_eq x W x2 x4 2 3 r p u h2 h4, tprod_eq x W x3 x4 3 2 r p u h3 h4]
  rfl

/-- Output tile 2 at row `p`, column `u`, for tiles that are rows `r` of the blades: the specification's entry. -/
theorem tile2_eq (x0 x1 x2 x3 : Vec Ideal S512x256 .f32) (x4 : Vec Ideal S256x1024 .f32) (x5 : Vec Ideal S1x1024 .f32)
    (p : Fin 512) (u : Fin 256) (r : Fin 16384)
    (h0 : ∀ k : Fin 256, x0 (ix2 p k) = x (ix2 (row 0 r) k)) (h1 : ∀ k : Fin 256, x1 (ix2 p k) = x (ix2 (row 1 r) k))
    (h2 : ∀ k : Fin 256, x2 (ix2 p k) = x (ix2 (row 2 r) k)) (h3 : ∀ k : Fin 256, x3 (ix2 p k) = x (ix2 (row 3 r) k))
    (h4 : x4 = W) (h5 : ∀ q : Fin 1024, x5 (ix2 (0 : Fin 1) q) = b (ix1 q)) :
    out0_8 (F := Ideal) x0 x1 x2 x3 x4 x5 (ix2 p u) = o2 x W b r u := by
  rw [out0_8_apply x0 x1 x2 x3 x4 x5 p u, h5 (col 2 u),
    tprod_eq x W x0 x4 0 2 r p u h0 h4, tprod_eq x W x1 x4 1 3 r p u h1 h4,
    tprod_eq x W x2 x4 2 0 r p u h2 h4, tprod_eq x W x3 x4 3 1 r p u h3 h4]
  rfl

/-- Output tile 3 at row `p`, column `u`, for tiles that are rows `r` of the blades: the specification's entry. -/
theorem tile3_eq (x0 x1 x2 x3 : Vec Ideal S512x256 .f32) (x4 : Vec Ideal S256x1024 .f32) (x5 : Vec Ideal S1x1024 .f32)
    (p : Fin 512) (u : Fin 256) (r : Fin 16384)
    (h0 : ∀ k : Fin 256, x0 (ix2 p k) = x (ix2 (row 0 r) k)) (h1 : ∀ k : Fin 256, x1 (ix2 p k) = x (ix2 (row 1 r) k))
    (h2 : ∀ k : Fin 256, x2 (ix2 p k) = x (ix2 (row 2 r) k)) (h3 : ∀ k : Fin 256, x3 (ix2 p k) = x (ix2 (row 3 r) k))
    (h4 : x4 = W) (h5 : ∀ q : Fin 1024, x5 (ix2 (0 : Fin 1) q) = b (ix1 q)) :
    out0_9 (F := Ideal) x0 x1 x2 x3 x4 x5 (ix2 p u) = o3 x W b r u := by
  rw [out0_9_apply x0 x1 x2 x3 x4 x5 p u, h5 (col 3 u),
    tprod_eq x W x0 x4 0 3 r p u h0 h4, tprod_eq x W x1 x4 1 2 r p u h1 h4,
    tprod_eq x W x2 x4 2 1 r p u h2 h4, tprod_eq x W x3 x4 3 0 r p u h3 h4]
  rfl

/-! ## What each point writes back -/

/-- What point `t` writes back to result block 0 is tile `t` of the specification's block. -/
theorem flushed6_eq (hx : V c main_arg0 = x) (hW : V c main_arg1 = W) (hb : V c main_v0 = shapeCast S1x1024 b shapeCasts_S1024_S1x1024)
    (t : Fin cfg0.N) :
    (dat0 (F := Ideal) V c).flushed 6 t = ((cfg0.win 6).blk t).view.read (Elt Ideal) (O0 x W b) := by
  show (cfg0.win 6).cut (grid0.coords t) ((dat0 (F := Ideal) V c).after 6 t) = _
  rw [after0_6]
  funext y
  obtain ⟨p, u, rfl⟩ : ∃ (p : Fin 512) (u : Fin 256), y = ix2 p u := ⟨y 0, y 1, eq_ix2 y⟩
  obtain ⟨r, hr⟩ := exists_row t p
  rw [read_blk6 (O0 x W b) t p u r hr]
  show out0_6 (F := Ideal) (xb0 V c t) (xb1 V c t) (xb2 V c t) (xb3 V c t) (wb V c t) (bb V c t) (ix2 p u) = o0 x W b r u
  exact tile0_eq x W b (xb0 V c t) (xb1 V c t) (xb2 V c t) (xb3 V c t) (wb V c t) (bb V c t) p u r
    (fun k => (xb0_apply V c t p k r hr).trans (congrFun hx _)) (fun k => (xb1_apply V c t p k r hr).trans (congrFun hx _))
    (fun k => (xb2_apply V c t p k r hr).trans (congrFun hx _)) (fun k => (xb3_apply V c t p k r hr).trans (congrFun hx _))
    ((wb_eq V c t).trans hW) (fun q => (congrFun (bb_eq V c t) _).trans (bias_apply V c b hb q))

/-- What point `t` writes back to result block 1 is tile `t` of the specification's block. -/
theorem flushed7_eq (hx : V c main_arg0 = x) (hW : V c main_arg1 = W) (hb : V c main_v0 = shapeCast S1x1024 b shapeCasts_S1024_S1x1024)
    (t : Fin cfg0.N) :
    (dat0 (F := Ideal) V c).flushed 7 t = ((cfg0.win 7).blk t).view.read (Elt Ideal) (O1 x W b) := by
  show (cfg0.win 7).cut (grid0.coords t) ((dat0 (F := Ideal) V c).after 7 t) = _
  rw [after0_7]
  funext y
  obtain ⟨p, u, rfl⟩ : ∃ (p : Fin 512) (u : Fin 256), y = ix2 p u := ⟨y 0, y 1, eq_ix2 y⟩
  obtain ⟨r, hr⟩ := exists_row t p
  rw [read_blk7 (O1 x W b) t p u r hr]
  show out0_7 (F := Ideal) (xb0 V c t) (xb1 V c t) (xb2 V c t) (xb3 V c t) (wb V c t) (bb V c t) (ix2 p u) = o1 x W b r u
  exact tile1_eq x W b (xb0 V c t) (xb1 V c t) (xb2 V c t) (xb3 V c t) (wb V c t) (bb V c t) p u r
    (fun k => (xb0_apply V c t p k r hr).trans (congrFun hx _)) (fun k => (xb1_apply V c t p k r hr).trans (congrFun hx _))
    (fun k => (xb2_apply V c t p k r hr).trans (congrFun hx _)) (fun k => (xb3_apply V c t p k r hr).trans (congrFun hx _))
    ((wb_eq V c t).trans hW) (fun q => (congrFun (bb_eq V c t) _).trans (bias_apply V c b hb q))

/-- What point `t` writes back to result block 2 is tile `t` of the specification's block. -/
theorem flushed8_eq (hx : V c main_arg0 = x) (hW : V c main_arg1 = W) (hb : V c main_v0 = shapeCast S1x1024 b shapeCasts_S1024_S1x1024)
    (t : Fin cfg0.N) :
    (dat0 (F := Ideal) V c).flushed 8 t = ((cfg0.win 8).blk t).view.read (Elt Ideal) (O2 x W b) := by
  show (cfg0.win 8).cut (grid0.coords t) ((dat0 (F := Ideal) V c).after 8 t) = _
  rw [after0_8]
  funext y
  obtain ⟨p, u, rfl⟩ : ∃ (p : Fin 512) (u : Fin 256), y = ix2 p u := ⟨y 0, y 1, eq_ix2 y⟩
  obtain ⟨r, hr⟩ := exists_row t p
  rw [read_blk8 (O2 x W b) t p u r hr]
  show out0_8 (F := Ideal) (xb0 V c t) (xb1 V c t) (xb2 V c t) (xb3 V c t) (wb V c t) (bb V c t) (ix2 p u) = o2 x W b r u
  exact tile2_eq x W b (xb0 V c t) (xb1 V c t) (xb2 V c t) (xb3 V c t) (wb V c t) (bb V c t) p u r
    (fun k => (xb0_apply V c t p k r hr).trans (congrFun hx _)) (fun k => (xb1_apply V c t p k r hr).trans (congrFun hx _))
    (fun k => (xb2_apply V c t p k r hr).trans (congrFun hx _)) (fun k => (xb3_apply V c t p k r hr).trans (congrFun hx _))
    ((wb_eq V c t).trans hW) (fun q => (congrFun (bb_eq V c t) _).trans (bias_apply V c b hb q))

/-- What point `t` writes back to result block 3 is tile `t` of the specification's block. -/
theorem flushed9_eq (hx : V c main_arg0 = x) (hW : V c main_arg1 = W) (hb : V c main_v0 = shapeCast S1x1024 b shapeCasts_S1024_S1x1024)
    (t : Fin cfg0.N) :
    (dat0 (F := Ideal) V c).flushed 9 t = ((cfg0.win 9).blk t).view.read (Elt Ideal) (O3 x W b) := by
  show (cfg0.win 9).cut (grid0.coords t) ((dat0 (F := Ideal) V c).after 9 t) = _
  rw [after0_9]
  funext y
  obtain ⟨p, u, rfl⟩ : ∃ (p : Fin 512) (u : Fin 256), y = ix2 p u := ⟨y 0, y 1, eq_ix2 y⟩
  obtain ⟨r, hr⟩ := exists_row t p
  rw [read_blk9 (O3 x W b) t p u r hr]
  show out0_9 (F := Ideal) (xb0 V c t) (xb1 V c t) (xb2 V c t) (xb3 V c t) (wb V c t) (bb V c t) (ix2 p u) = o3 x W b r u
  exact tile3_eq x W b (xb0 V c t) (xb1 V c t) (xb2 V c t) (xb3 V c t) (wb V c t) (bb V c t) p u r
    (fun k => (xb0_apply V c t p k r hr).trans (congrFun hx _)) (fun k => (xb1_apply V c t p k r hr).trans (congrFun hx _))
    (fun k => (xb2_apply V c t p k r hr).trans (congrFun hx _)) (fun k => (xb3_apply V c t p k r hr).trans (congrFun hx _))
    ((wb_eq V c t).trans hW) (fun q => (congrFun (bb_eq V c t) _).trans (bias_apply V c b hb q))

/-! ## The 32 tiles cover the 16384 rows -/

/-- Every row of result block 0 lies in the tile of the point `row / 512`. -/
theorem cover6 (i : S16384x256.Idx) : ∃ t : Fin cfg0.N, (cfg0.win 6).flush t = true ∧ i ∈ ((cfg0.win 6).blk t).view.set := by
  have h0 : (i 0).val < 16384 := (i 0).isLt
  have h1 : (i 1).val < 256 := (i 1).isLt
  have hN : (i 0).val / 512 < cfg0.N := by rw [show cfg0.N = 32 from N_0]; omega
  refine ⟨⟨(i 0).val / 512, hN⟩, flush0_6 _, ?_⟩
  obtain ⟨e0, e1⟩ := idx6 ⟨(i 0).val / 512, hN⟩
  show i ∈ ((View.whole main_v1_0).slice (win0_6.rect ⟨(i 0).val / 512, hN⟩)).set
  rw [View.set_slice_whole, Rect.mem_set_unit]
  intro a
  match a with
  | ⟨0, _⟩ =>
    show win0_6.index ⟨(i 0).val / 512, hN⟩ (0 : Fin 2) * 512 ≤ (i 0).val ∧ (i 0).val < win0_6.index ⟨(i 0).val / 512, hN⟩ (0 : Fin 2) * 512 + 512
    rw [e0]; dsimp only; omega
  | ⟨1, _⟩ =>
    show win0_6.index ⟨(i 0).val / 512, hN⟩ (1 : Fin 2) * 256 ≤ (i 1).val ∧ (i 1).val < win0_6.index ⟨(i 0).val / 512, hN⟩ (1 : Fin 2) * 256 + 256
    rw [e1]; omega

/-- Every row of result block 1 lies in the tile of the point `row / 512`. -/
theorem cover7 (i : S16384x256.Idx) : ∃ t : Fin cfg0.N, (cfg0.win 7).flush t = true ∧ i ∈ ((cfg0.win 7).blk t).view.set := by
  have h0 : (i 0).val < 16384 := (i 0).isLt
  have h1 : (i 1).val < 256 := (i 1).isLt
  have hN : (i 0).val / 512 < cfg0.N := by rw [show cfg0.N = 32 from N_0]; omega
  refine ⟨⟨(i 0).val / 512, hN⟩, flush0_7 _, ?_⟩
  obtain ⟨e0, e1⟩ := idx7 ⟨(i 0).val / 512, hN⟩
  show i ∈ ((View.whole main_v1_1).slice (win0_7.rect ⟨(i 0).val / 512, hN⟩)).set
  rw [View.set_slice_whole, Rect.mem_set_unit]
  intro a
  match a with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    rw [e0]; dsimp only; omega
  | ⟨1, _⟩ =>
    show win0_7.index ⟨(i 0).val / 512, hN⟩ (1 : Fin 2) * 256 ≤ (i 1).val ∧ (i 1).val < win0_7.index ⟨(i 0).val / 512, hN⟩ (1 : Fin 2) * 256 + 256
    rw [e1]; omega

/-- Every row of result block 2 lies in the tile of the point `row / 512`. -/
theorem cover8 (i : S16384x256.Idx) : ∃ t : Fin cfg0.N, (cfg0.win 8).flush t = true ∧ i ∈ ((cfg0.win 8).blk t).view.set := by
  have h0 : (i 0).val < 16384 := (i 0).isLt
  have h1 : (i 1).val < 256 := (i 1).isLt
  have hN : (i 0).val / 512 < cfg0.N := by rw [show cfg0.N = 32 from N_0]; omega
  refine ⟨⟨(i 0).val / 512, hN⟩, flush0_8 _, ?_⟩
  obtain ⟨e0, e1⟩ := idx8 ⟨(i 0).val / 512, hN⟩
  show i ∈ ((View.whole main_v1_2).slice (win0_8.rect ⟨(i 0).val / 512, hN⟩)).set
  rw [View.set_slice_whole, Rect.mem_set_unit]
  intro a
  match a with
  | ⟨0, _⟩ =>
    show win0_8.index ⟨(i 0).val / 512, hN⟩ (0 : Fin 2) * 512 ≤ (i 0).val ∧ (i 0).val < win0_8.index ⟨(i 0).val / 512, hN⟩ (0 : Fin 2) * 512 + 512
    rw [e0]; dsimp only; omega
  | ⟨1, _⟩ =>
    show win0_8.index ⟨(i 0).val / 512, hN⟩ (1 : Fin 2) * 256 ≤ (i 1).val ∧ (i 1).val < win0_8.index ⟨(i 0).val / 512, hN⟩ (1 : Fin 2) * 256 + 256
    rw [e1]; omega

/-- Every row of result block 3 lies in the tile of the point `row / 512`. -/
theorem cover9 (i : S16384x256.Idx) : ∃ t : Fin cfg0.N, (cfg0.win 9).flush t = true ∧ i ∈ ((cfg0.win 9).blk t).view.set := by
  have h0 : (i 0).val < 16384 := (i 0).isLt
  have h1 : (i 1).val < 256 := (i 1).isLt
  have hN : (i 0).val / 512 < cfg0.N := by rw [show cfg0.N = 32 from N_0]; omega
  refine ⟨⟨(i 0).val / 512, hN⟩, flush0_9 _, ?_⟩
  obtain ⟨e0, e1⟩ := idx9 ⟨(i 0).val / 512, hN⟩
  show i ∈ ((View.whole main_v1_3).slice (win0_9.rect ⟨(i 0).val / 512, hN⟩)).set
  rw [View.set_slice_whole, Rect.mem_set_unit]
  intro a
  match a with
  | ⟨0, _⟩ =>
    show win0_9.index ⟨(i 0).val / 512, hN⟩ (0 : Fin 2) * 512 ≤ (i 0).val ∧ (i 0).val < win0_9.index ⟨(i 0).val / 512, hN⟩ (0 : Fin 2) * 512 + 512
    rw [e0]; dsimp only; omega
  | ⟨1, _⟩ =>
    show win0_9.index ⟨(i 0).val / 512, hN⟩ (1 : Fin 2) * 256 ≤ (i 1).val ∧ (i 1).val < win0_9.index ⟨(i 0).val / 512, hN⟩ (1 : Fin 2) * 256 + 256
    rw [e1]; omega

/-! ## The arrays after the last point -/

theorem arr6_eq (hx : V c main_arg0 = x) (hW : V c main_arg1 = W) (hb : V c main_v0 = shapeCast S1x1024 b shapeCasts_S1024_S1x1024) :
    (dat0 (F := Ideal) V c).arrAt 6 cfg0.N = O0 x W b :=
  (dat0 (F := Ideal) V c).arrAt_eq_of_cover 6 (O0 x W b) (fun t _ => flushed6_eq V c x W b hx hW hb t) cover6

theorem arr7_eq (hx : V c main_arg0 = x) (hW : V c main_arg1 = W) (hb : V c main_v0 = shapeCast S1x1024 b shapeCasts_S1024_S1x1024) :
    (dat0 (F := Ideal) V c).arrAt 7 cfg0.N = O1 x W b :=
  (dat0 (F := Ideal) V c).arrAt_eq_of_cover 7 (O1 x W b) (fun t _ => flushed7_eq V c x W b hx hW hb t) cover7

theorem arr8_eq (hx : V c main_arg0 = x) (hW : V c main_arg1 = W) (hb : V c main_v0 = shapeCast S1x1024 b shapeCasts_S1024_S1x1024) :
    (dat0 (F := Ideal) V c).arrAt 8 cfg0.N = O2 x W b :=
  (dat0 (F := Ideal) V c).arrAt_eq_of_cover 8 (O2 x W b) (fun t _ => flushed8_eq V c x W b hx hW hb t) cover8

theorem arr9_eq (hx : V c main_arg0 = x) (hW : V c main_arg1 = W) (hb : V c main_v0 = shapeCast S1x1024 b shapeCasts_S1024_S1x1024) :
    (dat0 (F := Ideal) V c).arrAt 9 cfg0.N = O3 x W b :=
  (dat0 (F := Ideal) V c).arrAt_eq_of_cover 9 (O3 x W b) (fun t _ => flushed9_eq V c x W b hx hW hb t) cover9

end Cert.KernelIdeal.Value

end
-- ==== Proof.RefStages.lean ====
/-
  The reference in stages. The product of the stacked input with the weight, regrouped as blade × row × column, gets
  the bias added on blade 0 only (a scatter-add of the broadcast bias at the one index 0), and is regrouped again as
  blade × row × panel × column: `Yv`. Its sixteen blade-by-panel slices `Pij` are combined, four at a time, by the
  quaternion table into the four result blocks `R0 … R3`, which are stacked.
-/
import proofs.«172979_j89300960018587_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The product with the bias added on blade 0, as blade × row × panel × column. -/
def Yv (x : FVec F S65536x256 .f32) (W : FVec F S256x1024 .f32) (b : FVec F S1024 .f32) : FVec F S4x16384x4x256 .f32 :=
  shapeCast _ (Host.scatter scatter_S4x16384x1024_S1_S16384x1024_01_0_0_0 FloatOps.addf
    (shapeCast _ (Host.dotGeneral dot_S65536x256_S256x1024_S65536x1024_1_0_0_1_n_n none x W) shapeCasts_S65536x1024_S4x16384x1024)
    (broadcastInDim S1 ![] bcast_S_S1 (constantI S_ 32 0#32))
    (broadcastInDim S16384x1024 ![1] bcast_S1024_S16384x1024_1 b)) shapeCasts_S4x16384x1024_S4x16384x4x256

/-- Blade 0's rows through panel 0 of the weight. -/
def P00 (y : FVec F S4x16384x4x256 .f32) : FVec F S16384x256 .f32 :=
  shapeCast _ (extractStridedSlice S1x16384x1x256 ![0, 0, 0, 0] y slices_S4x16384x4x256_S1x16384x1x256_0_0_0_0) shapeCasts_S1x16384x1x256_S16384x256
/-- Blade 0's rows through panel 1 of the weight. -/
def P01 (y : FVec F S4x16384x4x256 .f32) : FVec F S16384x256 .f32 :=
  shapeCast _ (extractStridedSlice S1x16384x1x256 ![0, 0, 1, 0] y slices_S4x16384x4x256_S1x16384x1x256_0_0_1_0) shapeCasts_S1x16384x1x256_S16384x256
/-- Blade 0's rows through panel 2 of the weight. -/
def P02 (y : FVec F S4x16384x4x256 .f32) : FVec F S16384x256 .f32 :=
  shapeCast _ (extractStridedSlice S1x16384x1x256 ![0, 0, 2, 0] y slices_S4x16384x4x256_S1x16384x1x256_0_0_2_0) shapeCasts_S1x16384x1x256_S16384x256
/-- Blade 0's rows through panel 3 of the weight. -/
def P03 (y : FVec F S4x16384x4x256 .f32) : FVec F S16384x256 .f32 :=
  shapeCast _ (extractStridedSlice S1x16384x1x256 ![0, 0, 3, 0] y slices_S4x16384x4x256_S1x16384x1x256_0_0_3_0) shapeCasts_S1x16384x1x256_S16384x256
/-- Blade 1's rows through panel 0 of the weight. -/
def P10 (y : FVec F S4x16384x4x256 .f32) : FVec F S16384x256 .f32 :=
  shapeCast _ (extractStridedSlice S1x16384x1x256 ![1, 0, 0, 0] y slices_S4x16384x4x256_S1x16384x1x256_1_0_0_0) shapeCasts_S1x16384x1x256_S16384x256
/-- Blade 1's rows through panel 1 of the weight. -/
def P11 (y : FVec F S4x16384x4x256 .f32) : FVec F S16384x256 .f32 :=
  shapeCast _ (extractStridedSlice S1x16384x1x256 ![1, 0, 1, 0] y slices_S4x16384x4x256_S1x16384x1x256_1_0_1_0) shapeCasts_S1x16384x1x256_S16384x256
/-- Blade 1's rows through panel 2 of the weight. -/
def P12 (y : FVec F S4x16384x4x256 .f32) : FVec F S16384x256 .f32 :=
  shapeCast _ (extractStridedSlice S1x16384x1x256 ![1, 0, 2, 0] y slices_S4x16384x4x256_S1x16384x1x256_1_0_2_0) shapeCasts_S1x16384x1x256_S16384x256
/-- Blade 1's rows through panel 3 of the weight. -/
def P13 (y : FVec F S4x16384x4x256 .f32) : FVec F S16384x256 .f32 :=
  shapeCast _ (extractStridedSlice S1x16384x1x256 ![1, 0, 3, 0] y slices_S4x16384x4x256_S1x16384x1x256_1_0_3_0) shapeCasts_S1x16384x1x256_S16384x256
/-- Blade 2's rows through panel 0 of the weight. -/
def P20 (y : FVec F S4x16384x4x256 .f32) : FVec F S16384x256 .f32 :=
  shapeCast _ (extractStridedSlice S1x16384x1x256 ![2, 0, 0, 0] y slices_S4x16384x4x256_S1x16384x1x256_2_0_0_0) shapeCasts_S1x16384x1x256_S16384x256
/-- Blade 2's rows through panel 1 of the weight. -/
def P21 (y : FVec F S4x16384x4x256 .f32) : FVec F S16384x256 .f32 :=
  shapeCast _ (extractStridedSlice S1x16384x1x256 ![2, 0, 1, 0] y slices_S4x16384x4x256_S1x16384x1x256_2_0_1_0) shapeCasts_S1x16384x1x256_S16384x256
/-- Blade 2's rows through panel 2 of the weight. -/
def P22 (y : FVec F S4x16384x4x256 .f32) : FVec F S16384x256 .f32 :=
  shapeCast _ (extractStridedSlice S1x16384x1x256 ![2, 0, 2, 0] y slices_S4x16384x4x256_S1x16384x1x256_2_0_2_0) shapeCasts_S1x16384x1x256_S16384x256
/-- Blade 2's rows through panel 3 of the weight. -/
def P23 (y : FVec F S4x16384x4x256 .f32) : FVec F S16384x256 .f32 :=
  shapeCast _ (extractStridedSlice S1x16384x1x256 ![2, 0, 3, 0] y slices_S4x16384x4x256_S1x16384x1x256_2_0_3_0) shapeCasts_S1x16384x1x256_S16384x256
/-- Blade 3's rows through panel 0 of the weight. -/
def P30 (y : FVec F S4x16384x4x256 .f32) : FVec F S16384x256 .f32 :=
  shapeCast _ (extractStridedSlice S1x16384x1x256 ![3, 0, 0, 0] y slices_S4x16384x4x256_S1x16384x1x256_3_0_0_0) shapeCasts_S1x16384x1x256_S16384x256
/-- Blade 3's rows through panel 1 of the weight. -/
def P31 (y : FVec F S4x16384x4x256 .f32) : FVec F S16384x256 .f32 :=
  shapeCast _ (extractStridedSlice S1x16384x1x256 ![3, 0, 1, 0] y slices_S4x16384x4x256_S1x16384x1x256_3_0_1_0) shapeCasts_S1x16384x1x256_S16384x256
/-- Blade 3's rows through panel 2 of the weight. -/
def P32 (y : FVec F S4x16384x4x256 .f32) : FVec F S16384x256 .f32 :=
  shapeCast _ (extractStridedSlice S1x16384x1x256 ![3, 0, 2, 0] y slices_S4x16384x4x256_S1x16384x1x256_3_0_2_0) shapeCasts_S1x16384x1x256_S16384x256
/-- Blade 3's rows through panel 3 of the weight. -/
def P33 (y : FVec F S4x16384x4x256 .f32) : FVec F S16384x256 .f32 :=
  shapeCast _ (extractStridedSlice S1x16384x1x256 ![3, 0, 3, 0] y slices_S4x16384x4x256_S1x16384x1x256_3_0_3_0) shapeCasts_S1x16384x1x256_S16384x256

/-- The four result blocks: the quaternion table, summed in the reference's order. -/
def R0 (y : FVec F S4x16384x4x256 .f32) : FVec F S16384x256 .f32 :=
  addf (addf (addf (P00 y) (Host.negf (P11 y))) (Host.negf (P22 y))) (Host.negf (P33 y))
def R1 (y : FVec F S4x16384x4x256 .f32) : FVec F S16384x256 .f32 :=
  addf (addf (addf (P01 y) (P10 y)) (P23 y)) (Host.negf (P32 y))
def R2 (y : FVec F S4x16384x4x256 .f32) : FVec F S16384x256 .f32 :=
  addf (addf (addf (P02 y) (Host.negf (P13 y))) (P20 y)) (P31 y)
def R3 (y : FVec F S4x16384x4x256 .f32) : FVec F S16384x256 .f32 :=
  addf (addf (addf (P03 y) (P12 y)) (Host.negf (P21 y))) (P30 y)

/-- The reference's result: the four blocks stacked. -/
def res (x : FVec F S65536x256 .f32) (W : FVec F S256x1024 .f32) (b : FVec F S1024 .f32) : FVec F S65536x256 .f32 :=
  concatenate S65536x256 0 [⟨S16384x256, R0 (Yv x W b)⟩, ⟨S16384x256, R1 (Yv x W b)⟩, ⟨S16384x256, R2 (Yv x W b)⟩, ⟨S16384x256, R3 (Yv x W b)⟩]
    concatenates_S16384x256_S16384x256_S16384x256_S16384x256_S65536x256_d0

end Cert.ReferenceIdeal.Stages

end
-- ==== Proof.RefRunH.lean ====
/-
  The reference's run. Its @main is a straight line of host operations; every weakly fair execution ends with the
  result buffer at the staged term of the three argument arrays (the product, the bias added on blade 0, the sixteen
  slices, the four signed sums, stacked) and the arguments as launched.

  The line is read in three stretches. The first seven operations build the regrouped, biased product from the three
  arguments. The next fifty read that one array only: sixteen slices of it, some of them negated, summed four at a
  time; over ANY contents of the array each of the four sums is the corresponding block of the quaternion table. The
  last operation stacks the four sums. What a stretch leaves in a buffer is a function of what the stretch before left,
  so the three readings compose.
-/
import proofs.«172979_j89300960018587_1_alg».proof.Proof.RefStages
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- @main's 58 operations, in order. -/
abbrev ops : List (HloOp τ sig (Elt F)) :=
  [ binary main_arg0 main_arg1 main_v0 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    reshape main_v0 main_v1 rfl shapeCasts_S65536x1024_S4x16384x1024,
    nullary main_c (constantI S_ 32 0#32),
    unary main_c main_v2 (broadcastInDim S1 ![] bcast_S_S1 : (⟨S_, .i32⟩ : BufTy).Contents (Elt F) → (⟨S1, .i32⟩ : BufTy).Contents (Elt F)),
    unary main_arg2 main_v3 (broadcastInDim S16384x1024 ![1] bcast_S1024_S16384x1024_1 : (⟨S1024, .f32⟩ : BufTy).Contents (Elt F) → (⟨S16384x1024, .f32⟩ : BufTy).Contents (Elt F)),
    ternary main_v1 main_v2 main_v3 main_v4 ((fun x i u => Host.scatter scatter_S4x16384x1024_S1_S16384x1024_01_0_0_0 FloatOps.addf x i u) : (⟨S4x16384x1024, .f32⟩ : BufTy).Contents (Elt F) → (⟨S1, .i32⟩ : BufTy).Contents (Elt F) → (⟨S16384x1024, .f32⟩ : BufTy).Contents (Elt F) → (⟨S4x16384x1024, .f32⟩ : BufTy).Contents (Elt F)),
    reshape main_v4 main_v5 rfl shapeCasts_S4x16384x1024_S4x16384x4x256,
    unary main_v5 main_v6 ((extractStridedSlice S1x16384x1x256 ![0, 0, 0, 0] · slices_S4x16384x4x256_S1x16384x1x256_0_0_0_0) : (⟨S4x16384x4x256, .f32⟩ : BufTy).Contents (Elt F) → (⟨S1x16384x1x256, .f32⟩ : BufTy).Contents (Elt F)),
    reshape main_v6 main_v7 rfl shapeCasts_S1x16384x1x256_S16384x256,
    unary main_v5 main_v8 ((extractStridedSlice S1x16384x1x256 ![0, 0, 1, 0] · slices_S4x16384x4x256_S1x16384x1x256_0_0_1_0) : (⟨S4x16384x4x256, .f32⟩ : BufTy).Contents (Elt F) → (⟨S1x16384x1x256, .f32⟩ : BufTy).Contents (Elt F)),
    reshape main_v8 main_v9 rfl shapeCasts_S1x16384x1x256_S16384x256,
    unary main_v5 main_v10 ((extractStridedSlice S1x16384x1x256 ![0, 0, 2, 0] · slices_S4x16384x4x256_S1x16384x1x256_0_0_2_0) : (⟨S4x16384x4x256, .f32⟩ : BufTy).Contents (Elt F) → (⟨S1x16384x1x256, .f32⟩ : BufTy).Contents (Elt F)),
    reshape main_v10 main_v11 rfl shapeCasts_S1x16384x1x256_S16384x256,
    unary main_v5 main_v12 ((extractStridedSlice S1x16384x1x256 ![0, 0, 3, 0] · slices_S4x16384x4x256_S1x16384x1x256_0_0_3_0) : (⟨S4x16384x4x256, .f32⟩ : BufTy).Contents (Elt F) → (⟨S1x16384x1x256, .f32⟩ : BufTy).Contents (Elt F)),
    reshape main_v12 main_v13 rfl shapeCasts_S1x16384x1x256_S16384x256,
    unary main_v5 main_v14 ((extractStridedSlice S1x16384x1x256 ![1, 0, 0, 0] · slices_S4x16384x4x256_S1x16384x1x256_1_0_0_0) : (⟨S4x16384x4x256, .f32⟩ : BufTy).Contents (Elt F) → (⟨S1x16384x1x256, .f32⟩ : BufTy).Contents (Elt F)),
    reshape main_v14 main_v15 rfl shapeCasts_S1x16384x1x256_S16384x256,
    binary main_v9 main_v15 main_v16 (addf : (⟨S16384x256, .f32⟩ : BufTy).Contents (Elt F) → (⟨S16384x256, .f32⟩ : BufTy).Contents (Elt F) → (⟨S16384x256, .f32⟩ : BufTy).Contents (Elt F)),
    unary main_v5 main_v17 ((extractStridedSlice S1x16384x1x256 ![1, 0, 1, 0] · slices_S4x16384x4x256_S1x16384x1x256_1_0_1_0) : (⟨S4x16384x4x256, .f32⟩ : BufTy).Contents (Elt F) → (⟨S1x16384x1x256, .f32⟩ : BufTy).Contents (Elt F)),
    reshape main_v17 main_v18 rfl shapeCasts_S1x16384x1x256_S16384x256,
    unary main_v18 main_v19 (Host.negf : (⟨S16384x256, .f32⟩ : BufTy).Contents (Elt F) → (⟨S16384x256, .f32⟩ : BufTy).Contents (Elt F)),
    binary main_v7 main_v19 main_v20 (addf : (⟨S16384x256, .f32⟩ : BufTy).Contents (Elt F) → (⟨S16384x256, .f32⟩ : BufTy).Contents (Elt F) → (⟨S16384x256, .f32⟩ : BufTy).Contents (Elt F)),
    unary main_v5 main_v21 ((extractStridedSlice S1x16384x1x256 ![1, 0, 2, 0] · slices_S4x16384x4x256_S1x16384x1x256_1_0_2_0) : (⟨S4x16384x4x256, .f32⟩ : BufTy).Contents (Elt F) → (⟨S1x16384x1x256, .f32⟩ : BufTy).Contents (Elt F)),
    reshape main_v21 main_v22 rfl shapeCasts_S1x16384x1x256_S16384x256,
    binary main_v13 main_v22 main_v23 (addf : (⟨S16384x256, .f32⟩ : BufTy).Contents (Elt F) → (⟨S16384x256, .f32⟩ : BufTy).Contents (Elt F) → (⟨S16384x256, .f32⟩ : BufTy).Contents (Elt F)),
    unary main_v5 main_v24 ((extractStridedSlice S1x16384x1x256 ![1, 0, 3, 0] · slices_S4x16384x4x256_S1x16384x1x256_1_0_3_0) : (⟨S4x16384x4x256, .f32⟩ : BufTy).Contents (Elt F) → (⟨S1x16384x1x256, .f32⟩ : BufTy).Contents (Elt F)),
    reshape main_v24 main_v25 rfl shapeCasts_S1x16384x1x256_S16384x256,
    unary main_v25 main_v26 (Host.negf : (⟨S16384x256, .f32⟩ : BufTy).Contents (Elt F) → (⟨S16384x256, .f32⟩ : BufTy).Contents (Elt F)),
    binary main_v11 main_v26 main_v27 (addf : (⟨S16384x256, .f32⟩ : BufTy).Contents (Elt F) → (⟨S16384x256, .f32⟩ : BufTy).Contents (Elt F) → (⟨S16384x256, .f32⟩ : BufTy).Contents (Elt F)),
    unary main_v5 main_v28 ((extractStridedSlice S1x16384x1x256 ![2, 0, 0, 0] · slices_S4x16384x4x256_S1x16384x1x256_2_0_0_0) : (⟨S4x16384x4x256, .f32⟩ : BufTy).Contents (Elt F) → (⟨S1x16384x1x256, .f32⟩ : BufTy).Contents (Elt F)),
    reshape main_v28 main_v29 rfl shapeCasts_S1x16384x1x256_S16384x256,
    binary main_v27 main_v29 main_v30 (addf : (⟨S16384x256, .f32⟩ : BufTy).Contents (Elt F) → (⟨S16384x256, .f32⟩ : BufTy).Contents (Elt F) → (⟨S16384x256, .f32⟩ : BufTy).Contents (Elt F)),
    unary main_v5 main_v31 ((extractStridedSlice S1x16384x1x256 ![2, 0, 1, 0] · slices_S4x16384x4x256_S1x16384x1x256_2_0_1_0) : (⟨S4x16384x4x256, .f32⟩ : BufTy).Contents (Elt F) → (⟨S1x16384x1x256, .f32⟩ : BufTy).Contents (Elt F)),
    reshape main_v31 main_v32 rfl shapeCasts_S1x16384x1x256_S16384x256,
    unary main_v32 main_v33 (Host.negf : (⟨S16384x256, .f32⟩ : BufTy).Contents (Elt F) → (⟨S16384x256, .f32⟩ : BufTy).Contents (Elt F)),
    binary main_v23 main_v33 main_v34 (addf : (⟨S16384x256, .f32⟩ : BufTy).Contents (Elt F) → (⟨S16384x256, .f32⟩ : BufTy).Contents (Elt F) → (⟨S16384x256, .f32⟩ : BufTy).Contents (Elt F)),
    unary main_v5 main_v35 ((extractStridedSlice S1x16384x1x256 ![2, 0, 2, 0] · slices_S4x16384x4x256_S1x16384x1x256_2_0_2_0) : (⟨S4x16384x4x256, .f32⟩ : BufTy).Contents (Elt F) → (⟨S1x16384x1x256, .f32⟩ : BufTy).Contents (Elt F)),
    reshape main_v35 main_v36 rfl shapeCasts_S1x16384x1x256_S16384x256,
    unary main_v36 main_v37 (Host.negf : (⟨S16384x256, .f32⟩ : BufTy).Contents (Elt F) → (⟨S16384x256, .f32⟩ : BufTy).Contents (Elt F)),
    binary main_v20 main_v37 main_v38 (addf : (⟨S16384x256, .f32⟩ : BufTy).Contents (Elt F) → (⟨S16384x256, .f32⟩ : BufTy).Contents (Elt F) → (⟨S16384x256, .f32⟩ : BufTy).Contents (Elt F)),
    unary main_v5 main_v39 ((extractStridedSlice S1x16384x1x256 ![2, 0, 3, 0] · slices_S4x16384x4x256_S1x16384x1x256_2_0_3_0) : (⟨S4x16384x4x256, .f32⟩ : BufTy).Contents (Elt F) → (⟨S1x16384x1x256, .f32⟩ : BufTy).Contents (Elt F)),
    reshape main_v39 main_v40 rfl shapeCasts_S1x16384x1x256_S16384x256,
    binary main_v16 main_v40 main_v41 (addf : (⟨S16384x256, .f32⟩ : BufTy).Contents (Elt F) → (⟨S16384x256, .f32⟩ : BufTy).Contents (Elt F) → (⟨S16384x256, .f32⟩ : BufTy).Contents (Elt F)),
    unary main_v5 main_v42 ((extractStridedSlice S1x16384x1x256 ![3, 0, 0, 0] · slices_S4x16384x4x256_S1x16384x1x256_3_0_0_0) : (⟨S4x16384x4x256, .f32⟩ : BufTy).Contents (Elt F) → (⟨S1x16384x1x256, .f32⟩ : BufTy).Contents (Elt F)),
    reshape main_v42 main_v43 rfl shapeCasts_S1x16384x1x256_S16384x256,
    binary main_v34 main_v43 main_v44 (addf : (⟨S16384x256, .f32⟩ : BufTy).Contents (Elt F) → (⟨S16384x256, .f32⟩ : BufTy).Contents (Elt F) → (⟨S16384x256, .f32⟩ : BufTy).Contents (Elt F)),
    unary main_v5 main_v45 ((extractStridedSlice S1x16384x1x256 ![3, 0, 1, 0] · slices_S4x16384x4x256_S1x16384x1x256_3_0_1_0) : (⟨S4x16384x4x256, .f32⟩ : BufTy).Contents (Elt F) → (⟨S1x16384x1x256, .f32⟩ : BufTy).Contents (Elt F)),
    reshape main_v45 main_v46 rfl shapeCasts_S1x16384x1x256_S16384x256,
    binary main_v30 main_v46 main_v47 (addf : (⟨S16384x256, .f32⟩ : BufTy).Contents (Elt F) → (⟨S16384x256, .f32⟩ : BufTy).Contents (Elt F) → (⟨S16384x256, .f32⟩ : BufTy).Contents (Elt F)),
    unary main_v5 main_v48 ((extractStridedSlice S1x16384x1x256 ![3, 0, 2, 0] · slices_S4x16384x4x256_S1x16384x1x256_3_0_2_0) : (⟨S4x16384x4x256, .f32⟩ : BufTy).Contents (Elt F) → (⟨S1x16384x1x256, .f32⟩ : BufTy).Contents (Elt F)),
    reshape main_v48 main_v49 rfl shapeCasts_S1x16384x1x256_S16384x256,
    unary main_v49 main_v50 (Host.negf : (⟨S16384x256, .f32⟩ : BufTy).Contents (Elt F) → (⟨S16384x256, .f32⟩ : BufTy).Contents (Elt F)),
    binary main_v41 main_v50 main_v51 (addf : (⟨S16384x256, .f32⟩ : BufTy).Contents (Elt F) → (⟨S16384x256, .f32⟩ : BufTy).Contents (Elt F) → (⟨S16384x256, .f32⟩ : BufTy).Contents (Elt F)),
    unary main_v5 main_v52 ((extractStridedSlice S1x16384x1x256 ![3, 0, 3, 0] · slices_S4x16384x4x256_S1x16384x1x256_3_0_3_0) : (⟨S4x16384x4x256, .f32⟩ : BufTy).Contents (Elt F) → (⟨S1x16384x1x256, .f32⟩ : BufTy).Contents (Elt F)),
    reshape main_v52 main_v53 rfl shapeCasts_S1x16384x1x256_S16384x256,
    unary main_v53 main_v54 (Host.negf : (⟨S16384x256, .f32⟩ : BufTy).Contents (Elt F) → (⟨S16384x256, .f32⟩ : BufTy).Contents (Elt F)),
    binary main_v38 main_v54 main_v55 (addf : (⟨S16384x256, .f32⟩ : BufTy).Contents (Elt F) → (⟨S16384x256, .f32⟩ : BufTy).Contents (Elt F) → (⟨S16384x256, .f32⟩ : BufTy).Contents (Elt F)),
    nary ![main_v55, main_v51, main_v47, main_v44] main_v56 (fun u => concatenate S65536x256 0 [⟨S16384x256, u 0⟩, ⟨S16384x256, u 1⟩, ⟨S16384x256, u 2⟩, ⟨S16384x256, u 3⟩] concatenates_S16384x256_S16384x256_S16384x256_S16384x256_S65536x256_d0) ]

/-- The first stretch: the product, regrouped, the bias scattered onto blade 0, regrouped again. -/
abbrev opsA : List (HloOp τ sig (Elt F)) :=
  [ binary main_arg0 main_arg1 main_v0 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    reshape main_v0 main_v1 rfl shapeCasts_S65536x1024_S4x16384x1024,
    nullary main_c (constantI S_ 32 0#32),
    unary main_c main_v2 (broadcastInDim S1 ![] bcast_S_S1 : (⟨S_, .i32⟩ : BufTy).Contents (Elt F) → (⟨S1, .i32⟩ : BufTy).Contents (Elt F)),
    unary main_arg2 main_v3 (broadcastInDim S16384x1024 ![1] bcast_S1024_S16384x1024_1 : (⟨S1024, .f32⟩ : BufTy).Contents (Elt F) → (⟨S16384x1024, .f32⟩ : BufTy).Contents (Elt F)),
    ternary main_v1 main_v2 main_v3 main_v4 ((fun x i u => Host.scatter scatter_S4x16384x1024_S1_S16384x1024_01_0_0_0 FloatOps.addf x i u) : (⟨S4x16384x1024, .f32⟩ : BufTy).Contents (Elt F) → (⟨S1, .i32⟩ : BufTy).Contents (Elt F) → (⟨S16384x1024, .f32⟩ : BufTy).Contents (Elt F) → (⟨S4x16384x1024, .f32⟩ : BufTy).Contents (Elt F)),
    reshape main_v4 main_v5 rfl shapeCasts_S4x16384x1024_S4x16384x4x256 ]

/-- The second stretch: the sixteen slices, the negations and the twelve sums. -/
abbrev opsB : List (HloOp τ sig (Elt F)) :=
  [ unary main_v5 main_v6 ((extractStridedSlice S1x16384x1x256 ![0, 0, 0, 0] · slices_S4x16384x4x256_S1x16384x1x256_0_0_0_0) : (⟨S4x16384x4x256, .f32⟩ : BufTy).Contents (Elt F) → (⟨S1x16384x1x256, .f32⟩ : BufTy).Contents (Elt F)),
    reshape main_v6 main_v7 rfl shapeCasts_S1x16384x1x256_S16384x256,
    unary main_v5 main_v8 ((extractStridedSlice S1x16384x1x256 ![0, 0, 1, 0] · slices_S4x16384x4x256_S1x16384x1x256_0_0_1_0) : (⟨S4x16384x4x256, .f32⟩ : BufTy).Contents (Elt F) → (⟨S1x16384x1x256, .f32⟩ : BufTy).Contents (Elt F)),
    reshape main_v8 main_v9 rfl shapeCasts_S1x16384x1x256_S16384x256,
    unary main_v5 main_v10 ((extractStridedSlice S1x16384x1x256 ![0, 0, 2, 0] · slices_S4x16384x4x256_S1x16384x1x256_0_0_2_0) : (⟨S4x16384x4x256, .f32⟩ : BufTy).Contents (Elt F) → (⟨S1x16384x1x256, .f32⟩ : BufTy).Contents (Elt F)),
    reshape main_v10 main_v11 rfl shapeCasts_S1x16384x1x256_S16384x256,
    unary main_v5 main_v12 ((extractStridedSlice S1x16384x1x256 ![0, 0, 3, 0] · slices_S4x16384x4x256_S1x16384x1x256_0_0_3_0) : (⟨S4x16384x4x256, .f32⟩ : BufTy).Contents (Elt F) → (⟨S1x16384x1x256, .f32⟩ : BufTy).Contents (Elt F)),
    reshape main_v12 main_v13 rfl shapeCasts_S1x16384x1x256_S16384x256,
    unary main_v5 main_v14 ((extractStridedSlice S1x16384x1x256 ![1, 0, 0, 0] · slices_S4x16384x4x256_S1x16384x1x256_1_0_0_0) : (⟨S4x16384x4x256, .f32⟩ : BufTy).Contents (Elt F) → (⟨S1x16384x1x256, .f32⟩ : BufTy).Contents (Elt F)),
    reshape main_v14 main_v15 rfl shapeCasts_S1x16384x1x256_S16384x256,
    binary main_v9 main_v15 main_v16 (addf : (⟨S16384x256, .f32⟩ : BufTy).Contents (Elt F) → (⟨S16384x256, .f32⟩ : BufTy).Contents (Elt F) → (⟨S16384x256, .f32⟩ : BufTy).Contents (Elt F)),
    unary main_v5 main_v17 ((extractStridedSlice S1x16384x1x256 ![1, 0, 1, 0] · slices_S4x16384x4x256_S1x16384x1x256_1_0_1_0) : (⟨S4x16384x4x256, .f32⟩ : BufTy).Contents (Elt F) → (⟨S1x16384x1x256, .f32⟩ : BufTy).Contents (Elt F)),
    reshape main_v17 main_v18 rfl shapeCasts_S1x16384x1x256_S16384x256,
    unary main_v18 main_v19 (Host.negf : (⟨S16384x256, .f32⟩ : BufTy).Contents (Elt F) → (⟨S16384x256, .f32⟩ : BufTy).Contents (Elt F)),
    binary main_v7 main_v19 main_v20 (addf : (⟨S16384x256, .f32⟩ : BufTy).Contents (Elt F) → (⟨S16384x256, .f32⟩ : BufTy).Contents (Elt F) → (⟨S16384x256, .f32⟩ : BufTy).Contents (Elt F)),
    unary main_v5 main_v21 ((extractStridedSlice S1x16384x1x256 ![1, 0, 2, 0] · slices_S4x16384x4x256_S1x16384x1x256_1_0_2_0) : (⟨S4x16384x4x256, .f32⟩ : BufTy).Contents (Elt F) → (⟨S1x16384x1x256, .f32⟩ : BufTy).Contents (Elt F)),
    reshape main_v21 main_v22 rfl shapeCasts_S1x16384x1x256_S16384x256,
    binary main_v13 main_v22 main_v23 (addf : (⟨S16384x256, .f32⟩ : BufTy).Contents (Elt F) → (⟨S16384x256, .f32⟩ : BufTy).Contents (Elt F) → (⟨S16384x256, .f32⟩ : BufTy).Contents (Elt F)),
    unary main_v5 main_v24 ((extractStridedSlice S1x16384x1x256 ![1, 0, 3, 0] · slices_S4x16384x4x256_S1x16384x1x256_1_0_3_0) : (⟨S4x16384x4x256, .f32⟩ : BufTy).Contents (Elt F) → (⟨S1x16384x1x256, .f32⟩ : BufTy).Contents (Elt F)),
    reshape main_v24 main_v25 rfl shapeCasts_S1x16384x1x256_S16384x256,
    unary main_v25 main_v26 (Host.negf : (⟨S16384x256, .f32⟩ : BufTy).Contents (Elt F) → (⟨S16384x256, .f32⟩ : BufTy).Contents (Elt F)),
    binary main_v11 main_v26 main_v27 (addf : (⟨S16384x256, .f32⟩ : BufTy).Contents (Elt F) → (⟨S16384x256, .f32⟩ : BufTy).Contents (Elt F) → (⟨S16384x256, .f32⟩ : BufTy).Contents (Elt F)),
    unary main_v5 main_v28 ((extractStridedSlice S1x16384x1x256 ![2, 0, 0, 0] · slices_S4x16384x4x256_S1x16384x1x256_2_0_0_0) : (⟨S4x16384x4x256, .f32⟩ : BufTy).Contents (Elt F) → (⟨S1x16384x1x256, .f32⟩ : BufTy).Contents (Elt F)),
    reshape main_v28 main_v29 rfl shapeCasts_S1x16384x1x256_S16384x256,
    binary main_v27 main_v29 main_v30 (addf : (⟨S16384x256, .f32⟩ : BufTy).Contents (Elt F) → (⟨S16384x256, .f32⟩ : BufTy).Contents (Elt F) → (⟨S16384x256, .f32⟩ : BufTy).Contents (Elt F)),
    unary main_v5 main_v31 ((extractStridedSlice S1x16384x1x256 ![2, 0, 1, 0] · slices_S4x16384x4x256_S1x16384x1x256_2_0_1_0) : (⟨S4x16384x4x256, .f32⟩ : BufTy).Contents (Elt F) → (⟨S1x16384x1x256, .f32⟩ : BufTy).Contents (Elt F)),
    reshape main_v31 main_v32 rfl shapeCasts_S1x16384x1x256_S16384x256,
    unary main_v32 main_v33 (Host.negf : (⟨S16384x256, .f32⟩ : BufTy).Contents (Elt F) → (⟨S16384x256, .f32⟩ : BufTy).Contents (Elt F)),
    binary main_v23 main_v33 main_v34 (addf : (⟨S16384x256, .f32⟩ : BufTy).Contents (Elt F) → (⟨S16384x256, .f32⟩ : BufTy).Contents (Elt F) → (⟨S16384x256, .f32⟩ : BufTy).Contents (Elt F)),
    unary main_v5 main_v35 ((extractStridedSlice S1x16384x1x256 ![2, 0, 2, 0] · slices_S4x16384x4x256_S1x16384x1x256_2_0_2_0) : (⟨S4x16384x4x256, .f32⟩ : BufTy).Contents (Elt F) → (⟨S1x16384x1x256, .f32⟩ : BufTy).Contents (Elt F)),
    reshape main_v35 main_v36 rfl shapeCasts_S1x16384x1x256_S16384x256,
    unary main_v36 main_v37 (Host.negf : (⟨S16384x256, .f32⟩ : BufTy).Contents (Elt F) → (⟨S16384x256, .f32⟩ : BufTy).Contents (Elt F)),
    binary main_v20 main_v37 main_v38 (addf : (⟨S16384x256, .f32⟩ : BufTy).Contents (Elt F) → (⟨S16384x256, .f32⟩ : BufTy).Contents (Elt F) → (⟨S16384x256, .f32⟩ : BufTy).Contents (Elt F)),
    unary main_v5 main_v39 ((extractStridedSlice S1x16384x1x256 ![2, 0, 3, 0] · slices_S4x16384x4x256_S1x16384x1x256_2_0_3_0) : (⟨S4x16384x4x256, .f32⟩ : BufTy).Contents (Elt F) → (⟨S1x16384x1x256, .f32⟩ : BufTy).Contents (Elt F)),
    reshape main_v39 main_v40 rfl shapeCasts_S1x16384x1x256_S16384x256,
    binary main_v16 main_v40 main_v41 (addf : (⟨S16384x256, .f32⟩ : BufTy).Contents (Elt F) → (⟨S16384x256, .f32⟩ : BufTy).Contents (Elt F) → (⟨S16384x256, .f32⟩ : BufTy).Contents (Elt F)),
    unary main_v5 main_v42 ((extractStridedSlice S1x16384x1x256 ![3, 0, 0, 0] · slices_S4x16384x4x256_S1x16384x1x256_3_0_0_0) : (⟨S4x16384x4x256, .f32⟩ : BufTy).Contents (Elt F) → (⟨S1x16384x1x256, .f32⟩ : BufTy).Contents (Elt F)),
    reshape main_v42 main_v43 rfl shapeCasts_S1x16384x1x256_S16384x256,
    binary main_v34 main_v43 main_v44 (addf : (⟨S16384x256, .f32⟩ : BufTy).Contents (Elt F) → (⟨S16384x256, .f32⟩ : BufTy).Contents (Elt F) → (⟨S16384x256, .f32⟩ : BufTy).Contents (Elt F)),
    unary main_v5 main_v45 ((extractStridedSlice S1x16384x1x256 ![3, 0, 1, 0] · slices_S4x16384x4x256_S1x16384x1x256_3_0_1_0) : (⟨S4x16384x4x256, .f32⟩ : BufTy).Contents (Elt F) → (⟨S1x16384x1x256, .f32⟩ : BufTy).Contents (Elt F)),
    reshape main_v45 main_v46 rfl shapeCasts_S1x16384x1x256_S16384x256,
    binary main_v30 main_v46 main_v47 (addf : (⟨S16384x256, .f32⟩ : BufTy).Contents (Elt F) → (⟨S16384x256, .f32⟩ : BufTy).Contents (Elt F) → (⟨S16384x256, .f32⟩ : BufTy).Contents (Elt F)),
    unary main_v5 main_v48 ((extractStridedSlice S1x16384x1x256 ![3, 0, 2, 0] · slices_S4x16384x4x256_S1x16384x1x256_3_0_2_0) : (⟨S4x16384x4x256, .f32⟩ : BufTy).Contents (Elt F) → (⟨S1x16384x1x256, .f32⟩ : BufTy).Contents (Elt F)),
    reshape main_v48 main_v49 rfl shapeCasts_S1x16384x1x256_S16384x256,
    unary main_v49 main_v50 (Host.negf : (⟨S16384x256, .f32⟩ : BufTy).Contents (Elt F) → (⟨S16384x256, .f32⟩ : BufTy).Contents (Elt F)),
    binary main_v41 main_v50 main_v51 (addf : (⟨S16384x256, .f32⟩ : BufTy).Contents (Elt F) → (⟨S16384x256, .f32⟩ : BufTy).Contents (Elt F) → (⟨S16384x256, .f32⟩ : BufTy).Contents (Elt F)),
    unary main_v5 main_v52 ((extractStridedSlice S1x16384x1x256 ![3, 0, 3, 0] · slices_S4x16384x4x256_S1x16384x1x256_3_0_3_0) : (⟨S4x16384x4x256, .f32⟩ : BufTy).Contents (Elt F) → (⟨S1x16384x1x256, .f32⟩ : BufTy).Contents (Elt F)),
    reshape main_v52 main_v53 rfl shapeCasts_S1x16384x1x256_S16384x256,
    unary main_v53 main_v54 (Host.negf : (⟨S16384x256, .f32⟩ : BufTy).Contents (Elt F) → (⟨S16384x256, .f32⟩ : BufTy).Contents (Elt F)),
    binary main_v38 main_v54 main_v55 (addf : (⟨S16384x256, .f32⟩ : BufTy).Contents (Elt F) → (⟨S16384x256, .f32⟩ : BufTy).Contents (Elt F) → (⟨S16384x256, .f32⟩ : BufTy).Contents (Elt F)) ]

/-- The last stretch: the four sums stacked. -/
abbrev opsC : List (HloOp τ sig (Elt F)) :=
  [ nary ![main_v55, main_v51, main_v47, main_v44] main_v56 (fun u => concatenate S65536x256 0 [⟨S16384x256, u 0⟩, ⟨S16384x256, u 1⟩, ⟨S16384x256, u 2⟩, ⟨S16384x256, u 3⟩] concatenates_S16384x256_S16384x256_S16384x256_S16384x256_S65536x256_d0) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., reshape_bufs_sub .., nullary_bufs_sub .., unary_bufs_sub .., unary_bufs_sub .., ternary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., binary_bufs_sub .., unary_bufs_sub .., reshape_bufs_sub .., binary_bufs_sub .., unary_bufs_sub .., reshape_bufs_sub .., unary_bufs_sub .., binary_bufs_sub .., unary_bufs_sub .., reshape_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., unary_bufs_sub .., binary_bufs_sub .., unary_bufs_sub .., reshape_bufs_sub .., unary_bufs_sub .., binary_bufs_sub .., nary_bufs_sub ..⟩

set_option maxRecDepth 8192 in
/-- The line is its three stretches, one after the other. -/
theorem ops_split : (ops : List (HloOp τ sig (Elt F))) = opsA ++ (opsB ++ opsC) := rfl

/-! ## The first stretch -/

/-- After the first seven operations the regrouped array holds Yv of the three arguments. -/
theorem opsA_v5 (V : Valuation τ sig (Elt F)) :
    after opsA V (Proc.devRef .tc main_v5) = Yv (V (Proc.devRef .tc main_arg0)) (V (Proc.devRef .tc main_arg1)) (V (Proc.devRef .tc main_arg2)) := by
  after_results_simp <;> rfl

/-! ## The second stretch, over any contents of the regrouped array -/

theorem opsB_v55 (V : Valuation τ sig (Elt F)) : after opsB V (Proc.devRef .tc main_v55) = R0 (V (Proc.devRef .tc main_v5)) := by
  after_results_simp <;> rfl
theorem opsB_v51 (V : Valuation τ sig (Elt F)) : after opsB V (Proc.devRef .tc main_v51) = R1 (V (Proc.devRef .tc main_v5)) := by
  after_results_simp <;> rfl
theorem opsB_v47 (V : Valuation τ sig (Elt F)) : after opsB V (Proc.devRef .tc main_v47) = R2 (V (Proc.devRef .tc main_v5)) := by
  after_results_simp <;> rfl
theorem opsB_v44 (V : Valuation τ sig (Elt F)) : after opsB V (Proc.devRef .tc main_v44) = R3 (V (Proc.devRef .tc main_v5)) := by
  after_results_simp <;> rfl

/-! ## The last stretch -/

/-- The stacking reads the four sums where the second stretch left them. -/
theorem opsC_v56 (V : Valuation τ sig (Elt F)) :
    after opsC V (Proc.devRef .tc main_v56)
      = concatenate S65536x256 0 [⟨S16384x256, V (Proc.devRef .tc main_v55)⟩, ⟨S16384x256, V (Proc.devRef .tc main_v51)⟩, ⟨S16384x256, V (Proc.devRef .tc main_v47)⟩, ⟨S16384x256, V (Proc.devRef .tc main_v44)⟩]
          concatenates_S16384x256_S16384x256_S16384x256_S16384x256_S65536x256_d0 := by
  after_results <;> rfl

/-! ## The whole line -/

/-- The result buffer after the whole line: the staged term of the three arguments. -/
theorem ops_v56 (V : Valuation τ sig (Elt F)) :
    after ops V (Proc.devRef .tc main_v56) = res (V (Proc.devRef .tc main_arg0)) (V (Proc.devRef .tc main_arg1)) (V (Proc.devRef .tc main_arg2)) := by
  rw [ops_split, after_append, after_append, opsC_v56, opsB_v55, opsB_v51, opsB_v47, opsB_v44, opsA_v5]
  rfl

/-- No operation of the line writes an argument. -/
theorem ops_arg0 (V : Valuation τ sig (Elt F)) : after ops V (Proc.devRef .tc main_arg0) = V (Proc.devRef .tc main_arg0) := by
  after_results_simp <;> rfl
theorem ops_arg1 (V : Valuation τ sig (Elt F)) : after ops V (Proc.devRef .tc main_arg1) = V (Proc.devRef .tc main_arg1) := by
  after_results_simp <;> rfl
theorem ops_arg2 (V : Valuation τ sig (Elt F)) : after ops V (Proc.devRef .tc main_arg2) = V (Proc.devRef .tc main_arg2) := by
  after_results_simp <;> rfl

/-- On every device, for any float values, from any memory with zero counters: every weakly fair execution of @main
    terminates with the result buffer at the staged term of the three arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = res (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v56).trans (ops_v56 _),
      (h c main_arg0).trans (ops_arg0 _), (h c main_arg1).trans (ops_arg1 _), (h c main_arg2).trans (ops_arg2 _)⟩)
    (run_seq scopedRefs_eq scopedSems_eq defs main (fun _ => ops) main_eq (fun _ => ops_sub) m ρ)

end Cert.ReferenceIdeal.Stages

end
-- ==== Proof.LibScatterAt.lean ====
/-
  A scatter read at one element.

  The host's scatter is a left fold, over the update's indices in row-major order, of point updates: update `j`
  replaces the operand's element at its landing position by `f` of that element and the update's. When every update
  lands inside the operand, at positions `g j` that are pairwise distinct — a single scatter index, each window
  element on its own operand element —, the fold is read without running it: the element at `g j` is `f` of the
  operand's element there and update `j` (`scatter_hit`), and an element no update lands on is the operand's
  (`scatter_miss`). Stated for any shapes, any element type and any combining function; the fold's length stays
  abstract, so nothing here evaluates it.
-/
import Idealize.ShloMosaic.PureOps.Ideal

noncomputable section

namespace Idealize.ShloMosaic.ScatterAt

open Idealize.ShloMosaic

section Fold
variable {ι κ α : Type} [DecidableEq κ] (f : α → α → α) (g : ι → κ) (v : ι → α)

/-- A left fold of point updates leaves alone every position none of the updates lands on. -/
theorem foldl_point_miss : ∀ (L : List ι) (x : κ → α) (i : κ), (∀ n ∈ L, g n ≠ i) →
    L.foldl (fun r n => fun i' => if i' = g n then f (r (g n)) (v n) else r i') x i = x i
  | [], x, i, _ => rfl
  | a :: L, x, i, h => by
    rw [List.foldl_cons, foldl_point_miss L _ i (fun n hn => h n (List.mem_cons_of_mem _ hn))]
    exact if_neg (fun e => h a List.mem_cons_self e.symm)

/-- When the landing positions are pairwise distinct, the position update `n` lands on holds the
    start value there combined with that one update. -/
theorem foldl_point_hit (hg : Function.Injective g) : ∀ (L : List ι) (x : κ → α) (n : ι), L.Nodup → n ∈ L →
    L.foldl (fun r n => fun i' => if i' = g n then f (r (g n)) (v n) else r i') x (g n) = f (x (g n)) (v n)
  | [], x, n, _, hn => absurd hn List.not_mem_nil
  | a :: L, x, n, hnd, hn => by
    rw [List.foldl_cons]
    rcases List.mem_cons.1 hn with rfl | hn'
    · rw [foldl_point_miss f g v L _ (g n) (fun m hm e => (List.nodup_cons.1 hnd).1 (hg e ▸ hm))]
      exact if_pos rfl
    · rw [foldl_point_hit hg L _ n (List.nodup_cons.1 hnd).2 hn']
      have hne : g n ≠ g a := fun e => (List.nodup_cons.1 hnd).1 (hg e ▸ hn')
      rw [if_neg hne]
end Fold

section Scatter
variable {s si u : Shape} {w : Nat} {α : Type} (d : ScatterDims s si u) (f : α → α → α) (x : s.Idx → α)
  (idx : IVec si w) (upd : u.Idx → α) (g : u.Idx → s.Idx)

/-- The scatter's fold, when every update lands inside the operand at `g` of its index. -/
theorem scatter_eq_foldl (hres : ∀ j, d.resultIdx? j idx = some (g j)) :
    Host.scatter d f x idx upd = (List.finRange u.numel).foldl (fun r n => fun i' =>
      if i' = g (u.rowMajor.symm n) then f (r (g (u.rowMajor.symm n))) (upd (u.rowMajor.symm n)) else r i') x := by
  unfold Host.scatter
  simp only [hres]

/-- A scatter whose updates all land inside the operand, at pairwise distinct positions `g j`: the
    position `g j` holds the operand's element combined with update `j` … -/
theorem scatter_hit (hg : Function.Injective g) (hres : ∀ j, d.resultIdx? j idx = some (g j)) (j : u.Idx) :
    Host.scatter d f x idx upd (g j) = f (x (g j)) (upd j) := by
  rw [scatter_eq_foldl d f x idx upd g hres]
  have h := foldl_point_hit f (fun n => g (u.rowMajor.symm n)) (fun n => upd (u.rowMajor.symm n))
    (hg.comp u.rowMajor.symm.injective) (List.finRange u.numel) x (u.rowMajor j) (List.nodup_finRange _) (List.mem_finRange _)
  simpa using h

/-- … and a position no update lands on holds the operand's element. -/
theorem scatter_miss (hres : ∀ j, d.resultIdx? j idx = some (g j)) (i : s.Idx) (hi : ∀ j, g j ≠ i) :
    Host.scatter d f x idx upd i = x i := by
  rw [scatter_eq_foldl d f x idx upd g hres]
  exact foldl_point_miss f (fun n => g (u.rowMajor.symm n)) (fun n => upd (u.rowMajor.symm n)) _ x i (fun n _ => hi _)
end Scatter

end Idealize.ShloMosaic.ScatterAt

end
-- ==== Proof.RefRead.lean ====
/-
  The reference's four result blocks are the specification's, over the extended reals. At blade `i`, row `r`, panel
  `j`, column `u` the staged array holds the product's entry at row `16384 i + r`, column `256 j + u` — a sum over the
  256 shared coordinates — with the bias's entry at that column added when `i = 0` and nothing added otherwise: the
  scatter-add's one update window lands on blade 0 and each of its elements on its own element. The slices pick
  blade and panel, the host's negation is the negative, and the sums are taken in the same order on both sides.
-/
import proofs.«172979_j89300960018587_1_alg».proof.Proof.RefStages
import proofs.«172979_j89300960018587_1_alg».proof.Proof.Spec
import proofs.«172979_j89300960018587_1_alg».proof.Proof.LibScatterAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Stages

open Cert.ReferenceIdeal Cert.ReferenceIdeal.Gen Cert.Spec
open Idealize.ShloMosaic Idealize.ShloMosaic.TcCoe Idealize.ShloMosaic.ValueIdx Idealize.ShloMosaic.ScatterAt

-- From here on the scatter is read only through the two lemmas above; its fold over the update's sixteen million
-- indices is never opened.
attribute [local irreducible] Host.scatter

section ThisScatter

/-- The scatter's one start index: the constant 0. -/
abbrev startIdx : IVec S1 32 := broadcastInDim S1 ![] bcast_S_S1 (constantI S_ 32 0#32)

/-- Where update element `(r, q)` lands: blade 0, row `r`, column `q`. -/
def land (j : S16384x1024.Idx) : S4x16384x1024.Idx :=
  ix3 (0 : Fin 4) (⟨(j 0).val, (j 0).isLt⟩ : Fin 16384) (⟨(j 1).val, (j 1).isLt⟩ : Fin 1024)

abbrev sd : ScatterDims S4x16384x1024 S1 S16384x1024 := scatter_S4x16384x1024_S1_S16384x1024_01_0_0_0

theorem sd_start (j : S16384x1024.Idx) (a : Fin S4x16384x1024.rank) : sd.start j startIdx a = 0 := by
  unfold ScatterDims.start
  split
  · show (0#32 : BitVec 32).toInt = 0
    decide
  · rfl

theorem sd_window0 (j : S16384x1024.Idx) : sd.window j 0 = 0 := by
  unfold ScatterDims.window
  rw [dif_neg (by decide)]
theorem sd_window1 (j : S16384x1024.Idx) : sd.window j 1 = (j 0).val := by
  unfold ScatterDims.window
  rw [dif_pos (by decide)]
  rfl
theorem sd_window2 (j : S16384x1024.Idx) : sd.window j 2 = (j 1).val := by
  unfold ScatterDims.window
  rw [dif_pos (by decide)]
  rfl

theorem sd_result (j : S16384x1024.Idx) : sd.resultIdx? j startIdx = some (land j) := by
  have hsw : ∀ a, sd.start j startIdx a + (sd.window j a : Int) = ((land j a).val : Int) := by
    intro a
    rw [sd_start]
    match a with
    | ⟨0, _⟩ =>
      show (0 : Int) + (sd.window j 0 : Int) = _
      rw [sd_window0]; rfl
    | ⟨1, _⟩ =>
      show (0 : Int) + (sd.window j 1 : Int) = _
      rw [sd_window1, zero_add]; rfl
    | ⟨2, _⟩ =>
      show (0 : Int) + (sd.window j 2 : Int) = _
      rw [sd_window2, zero_add]; rfl
  unfold ScatterDims.resultIdx?
  rw [dif_pos (fun a => by rw [hsw a]; exact ⟨Int.natCast_nonneg _, by exact_mod_cast (land j a).isLt⟩)]
  refine congrArg some (funext fun a => Fin.ext ?_)
  show (sd.start j startIdx a + (sd.window j a : Int)).toNat = (land j a).val
  rw [hsw a, Int.toNat_natCast]

theorem land_injective : Function.Injective land := by
  intro j j' h
  have h1 : (j 0).val = (j' 0).val := congrArg (fun k : S4x16384x1024.Idx => (k 1).val) h
  have h2 : (j 1).val = (j' 1).val := congrArg (fun k : S4x16384x1024.Idx => (k 2).val) h
  funext a
  match a with
  | ⟨0, _⟩ => exact Fin.ext h1
  | ⟨1, _⟩ => exact Fin.ext h2

end ThisScatter

section Reads
variable (x : FVec Ideal S65536x256 .f32) (W : FVec Ideal S256x1024 .f32) (b : FVec Ideal S1024 .f32)

/-! ## The product at an index -/

abbrev dd : DotDims S65536x256 S256x1024 S65536x1024 := dot_S65536x256_S256x1024_S65536x1024_1_0_0_1_n_n

theorem dd_lhs0 (i : S65536x1024.Idx) (q : dd.contr.Idx) : (dd.lhsIdx i q 0).val = (i 0).val := by
  unfold DotDims.lhsIdx
  rw [dif_neg (show ¬(0 : Fin S65536x256.rank) ∈ dd.lhsBatch by decide),
    dif_pos (show (0 : Fin S65536x256.rank) ∈ dd.lhsNonContracting by decide)]
  rfl
theorem dd_lhs1 (i : S65536x1024.Idx) (q : dd.contr.Idx) : (dd.lhsIdx i q 1).val = (q ⟨0, by decide⟩).val :=
  dd.lhsIdx_val_of_single rfl i q
theorem dd_rhs0 (i : S65536x1024.Idx) (q : dd.contr.Idx) : (dd.rhsIdx i q 0).val = (q ⟨0, by decide⟩).val :=
  dd.rhsIdx_val_of_single rfl i q
theorem dd_rhs1 (i : S65536x1024.Idx) (q : dd.contr.Idx) : (dd.rhsIdx i q 1).val = (i 1).val := by
  unfold DotDims.rhsIdx
  rw [dif_neg (show ¬(1 : Fin S256x1024.rank) ∈ dd.rhsBatch by decide),
    dif_pos (show (1 : Fin S256x1024.rank) ∈ dd.rhsNonContracting by decide)]
  rfl

/-- Entry `(p, q)` of the product: row `p` of `x` against column `q` of `W`, summed over the 256 shared coordinates. -/
theorem dot_read (p : Fin 65536) (q : Fin 1024) :
    Host.dotGeneral (F := Ideal) dd none x W (ix2 p q) = ∑ k : Fin 256, x (ix2 p k) * W (ix2 k q) := by
  simp only [Host.dotGeneral]
  rw [Ideal.dotGeneral_apply, ← Equiv.sum_comp (contrEquiv1 dd 256 rfl rfl).symm]
  refine Finset.sum_congr rfl fun k _ => ?_
  have hk := contrEquiv1_symm_val dd 256 rfl rfl k
  have el : dd.lhsIdx (ix2 p q) ((contrEquiv1 dd 256 rfl rfl).symm k) = ix2 p k := funext fun a => Fin.ext (by
    match a with
    | ⟨0, _⟩ => exact dd_lhs0 _ _
    | ⟨1, _⟩ => exact (dd_lhs1 _ _).trans hk)
  have er : dd.rhsIdx (ix2 p q) ((contrEquiv1 dd 256 rfl rfl).symm k) = ix2 k q := funext fun a => Fin.ext (by
    match a with
    | ⟨0, _⟩ => exact (dd_rhs0 _ _).trans hk
    | ⟨1, _⟩ => exact dd_rhs1 _ _)
  rw [el, er]

/-! ## The staged array, layer by layer -/

/-- The product regrouped as blade × row × column. -/
abbrev Y3 : FVec Ideal S4x16384x1024 .f32 :=
  shapeCast _ (Host.dotGeneral dd none x W) shapeCasts_S65536x1024_S4x16384x1024
/-- The bias repeated on every row. -/
abbrev updB : FVec Ideal S16384x1024 .f32 := broadcastInDim S16384x1024 ![1] bcast_S1024_S16384x1024_1 b
/-- The regrouped product after the scatter-add. -/
abbrev Ys : FVec Ideal S4x16384x1024 .f32 := Host.scatter sd FloatOps.addf (Y3 x W) startIdx (updB b)

/-- Blade `i`, row `r`, column `q` of the regrouped product is the product's row `16384 i + r`. -/
theorem Y3_read (i : Fin 4) (r : Fin 16384) (q : Fin 1024) :
    Y3 x W (ix3 i r q) = ∑ k : Fin 256, x (ix2 (row i r) k) * W (ix2 k q) := by
  refine (shapeCast_apply _ shapeCasts_S65536x1024_S4x16384x1024 (ix3 i r q) (ix2 (row i r) q) ?_).trans (dot_read x W _ _)
  rw [Shape.rowMajor_val_two, Shape.rowMajor_val_three]
  show (i.val * 16384 + r.val) * 1024 + q.val = (i.val * 16384 + r.val) * 1024 + q.val
  rfl

theorem updB_read (r : Fin 16384) (q : Fin 1024) : updB b (ix2 r q) = b (ix1 q) :=
  broadcastInDim_apply _ bcast_S1024_S16384x1024_1 b (ix2 r q) (ix1 q) (fun a => by
    match a with
    | ⟨0, _⟩ => rfl)

/-- On blade 0 the scatter-add adds the bias's entry at the column … -/
theorem Ys_zero (r : Fin 16384) (q : Fin 1024) : Ys x W b (ix3 0 r q) = Y3 x W (ix3 0 r q) + b (ix1 q) := by
  have h := scatter_hit sd (FloatOps.addf (F := Ideal) (φ := .f32)) (Y3 x W) startIdx (updB b) land land_injective sd_result (ix2 r q)
  have hl : land (ix2 r q) = ix3 0 r q := rfl
  rw [updB_read, hl] at h
  exact h

/-- … and on the other blades it adds nothing. -/
theorem Ys_pos (i : Fin 4) (hi : i ≠ 0) (r : Fin 16384) (q : Fin 1024) : Ys x W b (ix3 i r q) = Y3 x W (ix3 i r q) :=
  scatter_miss sd (FloatOps.addf (F := Ideal) (φ := .f32)) (Y3 x W) startIdx (updB b) land sd_result (ix3 i r q) (fun j e => hi (by
    have h0 := congrArg (fun k : S4x16384x1024.Idx => k 0) e
    exact h0.symm))

/-- Blade `i`, row `r`, panel `j`, column `u` of the staged array is column `256 j + u` of blade `i`, row `r`. -/
theorem Yv_read (i : Fin 4) (r : Fin 16384) (j : Fin 4) (u : Fin 256) :
    Yv x W b (ix4 i r j u) = Ys x W b (ix3 i r (col j u)) := by
  unfold Yv
  exact shapeCast_apply _ shapeCasts_S4x16384x1024_S4x16384x4x256 (ix4 i r j u) (ix3 i r (col j u)) (by
    rw [Shape.rowMajor_val_three, Shape.rowMajor_val_four]
    show (i.val * 16384 + r.val) * 1024 + (j.val * 256 + u.val) = ((i.val * 16384 + r.val) * 4 + j.val) * 256 + u.val
    omega)

theorem Yv_zero (r : Fin 16384) (j : Fin 4) (u : Fin 256) : Yv x W b (ix4 0 r j u) = prodB x W b j r u := by
  rw [Yv_read, Ys_zero, Y3_read]
  rfl

theorem Yv_pos (i : Fin 4) (hi : i ≠ 0) (r : Fin 16384) (j : Fin 4) (u : Fin 256) : Yv x W b (ix4 i r j u) = prod x W i j r u := by
  rw [Yv_read, Ys_pos x W b i hi, Y3_read]
  rfl

/-! ## The sixteen slices -/

/-- The slice at blade `i0`, panel `j0`, its two unit axes dropped, reads the array there. -/
theorem slice_read (off : Fin S4x16384x4x256.rank → Nat) (h : S4x16384x4x256.Slices off S1x16384x1x256)
    (y : FVec Ideal S4x16384x4x256 .f32) (i0 j0 : Fin 4) (h0 : off 0 = i0.val) (h1 : off 1 = 0) (h2 : off 2 = j0.val)
    (h3 : off 3 = 0) (r : Fin 16384) (u : Fin 256) :
    shapeCast S16384x256 (extractStridedSlice S1x16384x1x256 off y h) shapeCasts_S1x16384x1x256_S16384x256 (ix2 r u)
      = y (ix4 i0 r j0 u) := by
  refine (shapeCast_apply _ shapeCasts_S1x16384x1x256_S16384x256 (ix2 r u) (ix4 (0 : Fin 1) r (0 : Fin 1) u) ?_).trans ?_
  · rw [Shape.rowMajor_val_four, Shape.rowMajor_val_two]
    show ((0 * 16384 + r.val) * 1 + 0) * 256 + u.val = r.val * 256 + u.val
    omega
  · refine extractStridedSlice_apply off y h _ (ix4 i0 r j0 u) (fun a => ?_)
    match a with
    | ⟨0, _⟩ => show i0.val = off 0 + 0; omega
    | ⟨1, _⟩ => show r.val = off 1 + r.val; omega
    | ⟨2, _⟩ => show j0.val = off 2 + 0; omega
    | ⟨3, _⟩ => show u.val = off 3 + u.val; omega

variable (y : FVec Ideal S4x16384x4x256 .f32) (r : Fin 16384) (u : Fin 256)
theorem P00_read : P00 y (ix2 r u) = y (ix4 0 r 0 u) :=
  slice_read ![0, 0, 0, 0] slices_S4x16384x4x256_S1x16384x1x256_0_0_0_0 y 0 0 rfl rfl rfl rfl r u
theorem P01_read : P01 y (ix2 r u) = y (ix4 0 r 1 u) :=
  slice_read ![0, 0, 1, 0] slices_S4x16384x4x256_S1x16384x1x256_0_0_1_0 y 0 1 rfl rfl rfl rfl r u
theorem P02_read : P02 y (ix2 r u) = y (ix4 0 r 2 u) :=
  slice_read ![0, 0, 2, 0] slices_S4x16384x4x256_S1x16384x1x256_0_0_2_0 y 0 2 rfl rfl rfl rfl r u
theorem P03_read : P03 y (ix2 r u) = y (ix4 0 r 3 u) :=
  slice_read ![0, 0, 3, 0] slices_S4x16384x4x256_S1x16384x1x256_0_0_3_0 y 0 3 rfl rfl rfl rfl r u
theorem P10_read : P10 y (ix2 r u) = y (ix4 1 r 0 u) :=
  slice_read ![1, 0, 0, 0] slices_S4x16384x4x256_S1x16384x1x256_1_0_0_0 y 1 0 rfl rfl rfl rfl r u
theorem P11_read : P11 y (ix2 r u) = y (ix4 1 r 1 u) :=
  slice_read ![1, 0, 1, 0] slices_S4x16384x4x256_S1x16384x1x256_1_0_1_0 y 1 1 rfl rfl rfl rfl r u
theorem P12_read : P12 y (ix2 r u) = y (ix4 1 r 2 u) :=
  slice_read ![1, 0, 2, 0] slices_S4x16384x4x256_S1x16384x1x256_1_0_2_0 y 1 2 rfl rfl rfl rfl r u
theorem P13_read : P13 y (ix2 r u) = y (ix4 1 r 3 u) :=
  slice_read ![1, 0, 3, 0] slices_S4x16384x4x256_S1x16384x1x256_1_0_3_0 y 1 3 rfl rfl rfl rfl r u
theorem P20_read : P20 y (ix2 r u) = y (ix4 2 r 0 u) :=
  slice_read ![2, 0, 0, 0] slices_S4x16384x4x256_S1x16384x1x256_2_0_0_0 y 2 0 rfl rfl rfl rfl r u
theorem P21_read : P21 y (ix2 r u) = y (ix4 2 r 1 u) :=
  slice_read ![2, 0, 1, 0] slices_S4x16384x4x256_S1x16384x1x256_2_0_1_0 y 2 1 rfl rfl rfl rfl r u
theorem P22_read : P22 y (ix2 r u) = y (ix4 2 r 2 u) :=
  slice_read ![2, 0, 2, 0] slices_S4x16384x4x256_S1x16384x1x256_2_0_2_0 y 2 2 rfl rfl rfl rfl r u
theorem P23_read : P23 y (ix2 r u) = y (ix4 2 r 3 u) :=
  slice_read ![2, 0, 3, 0] slices_S4x16384x4x256_S1x16384x1x256_2_0_3_0 y 2 3 rfl rfl rfl rfl r u
theorem P30_read : P30 y (ix2 r u) = y (ix4 3 r 0 u) :=
  slice_read ![3, 0, 0, 0] slices_S4x16384x4x256_S1x16384x1x256_3_0_0_0 y 3 0 rfl rfl rfl rfl r u
theorem P31_read : P31 y (ix2 r u) = y (ix4 3 r 1 u) :=
  slice_read ![3, 0, 1, 0] slices_S4x16384x4x256_S1x16384x1x256_3_0_1_0 y 3 1 rfl rfl rfl rfl r u
theorem P32_read : P32 y (ix2 r u) = y (ix4 3 r 2 u) :=
  slice_read ![3, 0, 2, 0] slices_S4x16384x4x256_S1x16384x1x256_3_0_2_0 y 3 2 rfl rfl rfl rfl r u
theorem P33_read : P33 y (ix2 r u) = y (ix4 3 r 3 u) :=
  slice_read ![3, 0, 3, 0] slices_S4x16384x4x256_S1x16384x1x256_3_0_3_0 y 3 3 rfl rfl rfl rfl r u

end Reads

section Blocks
variable (y : FVec Ideal S4x16384x4x256 .f32) (r : Fin 16384) (u : Fin 256)

/-- The host's negation at an index is the negative of the element. -/
theorem hostNegf_read {s : Shape} (z : FVec Ideal s .f32) (i : s.Idx) : Host.negf (F := Ideal) z i = -(z i) := rfl

theorem R0_read : R0 (F := Ideal) y (ix2 r u)
    = ((y (ix4 0 r 0 u) + -(y (ix4 1 r 1 u))) + -(y (ix4 2 r 2 u))) + -(y (ix4 3 r 3 u)) := by
  unfold R0
  rw [addf_apply, addf_apply, addf_apply, hostNegf_read, hostNegf_read, hostNegf_read, P00_read, P11_read, P22_read, P33_read]
theorem R1_read : R1 (F := Ideal) y (ix2 r u)
    = ((y (ix4 0 r 1 u) + y (ix4 1 r 0 u)) + y (ix4 2 r 3 u)) + -(y (ix4 3 r 2 u)) := by
  unfold R1
  rw [addf_apply, addf_apply, addf_apply, hostNegf_read, P01_read, P10_read, P23_read, P32_read]
theorem R2_read : R2 (F := Ideal) y (ix2 r u)
    = ((y (ix4 0 r 2 u) + -(y (ix4 1 r 3 u))) + y (ix4 2 r 0 u)) + y (ix4 3 r 1 u) := by
  unfold R2
  rw [addf_apply, addf_apply, addf_apply, hostNegf_read, P02_read, P13_read, P20_read, P31_read]
theorem R3_read : R3 (F := Ideal) y (ix2 r u)
    = ((y (ix4 0 r 3 u) + y (ix4 1 r 2 u)) + -(y (ix4 2 r 1 u))) + y (ix4 3 r 0 u) := by
  unfold R3
  rw [addf_apply, addf_apply, addf_apply, hostNegf_read, P03_read, P12_read, P21_read, P30_read]

end Blocks

variable (x : FVec Ideal S65536x256 .f32) (W : FVec Ideal S256x1024 .f32) (b : FVec Ideal S1024 .f32)

theorem R0_eq : R0 (F := Ideal) (Yv x W b) = O0 x W b := by
  funext j
  obtain ⟨r, u, rfl⟩ : ∃ (r : Fin 16384) (u : Fin 256), j = ix2 r u := ⟨j 0, j 1, eq_ix2 j⟩
  rw [R0_read, O0_ix2, Yv_zero, Yv_pos x W b 1 (by decide), Yv_pos x W b 2 (by decide), Yv_pos x W b 3 (by decide), o0]
theorem R1_eq : R1 (F := Ideal) (Yv x W b) = O1 x W b := by
  funext j
  obtain ⟨r, u, rfl⟩ : ∃ (r : Fin 16384) (u : Fin 256), j = ix2 r u := ⟨j 0, j 1, eq_ix2 j⟩
  rw [R1_read, O1_ix2, Yv_zero, Yv_pos x W b 1 (by decide), Yv_pos x W b 2 (by decide), Yv_pos x W b 3 (by decide), o1]
theorem R2_eq : R2 (F := Ideal) (Yv x W b) = O2 x W b := by
  funext j
  obtain ⟨r, u, rfl⟩ : ∃ (r : Fin 16384) (u : Fin 256), j = ix2 r u := ⟨j 0, j 1, eq_ix2 j⟩
  rw [R2_read, O2_ix2, Yv_zero, Yv_pos x W b 1 (by decide), Yv_pos x W b 2 (by decide), Yv_pos x W b 3 (by decide), o2]
theorem R3_eq : R3 (F := Ideal) (Yv x W b) = O3 x W b := by
  funext j
  obtain ⟨r, u, rfl⟩ : ∃ (r : Fin 16384) (u : Fin 256), j = ix2 r u := ⟨j 0, j 1, eq_ix2 j⟩
  rw [R3_read, O3_ix2, Yv_zero, Yv_pos x W b 1 (by decide), Yv_pos x W b 2 (by decide), Yv_pos x W b 3 (by decide), o3]

end Cert.ReferenceIdeal.Stages

end
-- ==== Proof.lean ====
/-
  The certificate of a fused quaternion-linear kernel against its jnp reference.

  The input is four blades of 16384 rows; the 1024 columns of the weight are four panels of 256. Both programs form
  every blade-by-panel product (the bias added on blade 0 only) and combine them by the quaternion multiplication
  table into four 16384×256 blocks, stacked. The kernel does it tile by tile — at each of 32 grid points it multiplies
  one 512-row tile of each blade by the whole weight (in bf16, which over the extended reals is the identity), cuts the
  products into panels and stores four signed sums —, the reference on the whole arrays, adding the bias by a
  scatter-add at the one index 0 and negating by the host's negation where the kernel subtracts from zero. Over the
  extended reals both results are the specification's blocks (Spec.lean), term for term in the same order of
  addition, so no law beyond `0 − a = −a` joins them and the precondition is never opened.

  The frames: the kernel's @main is a host reshape, the region, a host concatenate; its one input array is read through
  four windows, which hold it a quarter share each (KIShares, KIRun; the word-level program's modules are the same text
  in its namespace). The reference's run is read back in two stretches (RefRunH). `preserves` is trivial: the ideal
  pass rewrote nothing.
-/
import proofs.«172979_j89300960018587_1_alg».proof.Defs
import proofs.«172979_j89300960018587_1_alg».proof.Proof.Gen.Kernel
import proofs.«172979_j89300960018587_1_alg».proof.Proof.Gen.KernelIdeal
import proofs.«172979_j89300960018587_1_alg».proof.Proof.Gen.ReferenceIdeal
import proofs.«172979_j89300960018587_1_alg».proof.Proof.Gen.Pre_finite_inputs
import proofs.«172979_j89300960018587_1_alg».proof.Proof.KRun
import proofs.«172979_j89300960018587_1_alg».proof.Proof.KIRun
import proofs.«172979_j89300960018587_1_alg».proof.Proof.KIValue
import proofs.«172979_j89300960018587_1_alg».proof.Proof.RefRunH
import proofs.«172979_j89300960018587_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_p : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Run.run_main (F := Bits) m ρ)

/-- So does the idealized kernel. -/
theorem frame_pi : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Run.run_main (F := Ideal) m ρ)

/-- And the reference. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

/-- Over the extended reals both programs end with the specification's four blocks stacked. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => concatenate Cert.KernelIdeal.S65536x256 0
      [⟨Cert.KernelIdeal.S16384x256, Cert.Spec.O0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))⟩,
       ⟨Cert.KernelIdeal.S16384x256, Cert.Spec.O1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))⟩,
       ⟨Cert.KernelIdeal.S16384x256, Cert.Spec.O2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))⟩,
       ⟨Cert.KernelIdeal.S16384x256, Cert.Spec.O3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))⟩]
      Cert.KernelIdeal.Facts₀.concatenates_S16384x256_S16384x256_S16384x256_S16384x256_S65536x256_d0, ?_, ?_⟩
  · -- the kernel: each output array after the last grid point is its block of the specification
    refine (θ_run Cert.KernelIdeal.defs _ _).mono (fun _ h c => ⟨(h c).1.trans ?_, (h c).2⟩)
      (Cert.KernelIdeal.Run.run_main (F := Ideal) m ρ)
    rw [Cert.KernelIdeal.Value.arr6_eq _ c _ _ _ (Cert.KernelIdeal.Run.V1_arg0 m c) (Cert.KernelIdeal.Run.V1_arg1 m c) (Cert.KernelIdeal.Run.V1_v0 m c),
      Cert.KernelIdeal.Value.arr7_eq _ c _ _ _ (Cert.KernelIdeal.Run.V1_arg0 m c) (Cert.KernelIdeal.Run.V1_arg1 m c) (Cert.KernelIdeal.Run.V1_v0 m c),
      Cert.KernelIdeal.Value.arr8_eq _ c _ _ _ (Cert.KernelIdeal.Run.V1_arg0 m c) (Cert.KernelIdeal.Run.V1_arg1 m c) (Cert.KernelIdeal.Run.V1_v0 m c),
      Cert.KernelIdeal.Value.arr9_eq _ c _ _ _ (Cert.KernelIdeal.Run.V1_arg0 m c) (Cert.KernelIdeal.Run.V1_arg1 m c) (Cert.KernelIdeal.Run.V1_v0 m c)]
  · -- the reference: its four staged blocks are the specification's, at arguments that agree with the kernel's
    refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2]
    unfold Cert.ReferenceIdeal.Stages.res
    rw [Cert.ReferenceIdeal.Stages.R0_eq, Cert.ReferenceIdeal.Stages.R1_eq, Cert.ReferenceIdeal.Stages.R2_eq, Cert.ReferenceIdeal.Stages.R3_eq]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
